-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S8192x512 : Shape := ⟨2, ![8192, 512]⟩
abbrev S8192x1 : Shape := ⟨2, ![8192, 1]⟩
abbrev S1024x512 : Shape := ⟨2, ![1024, 512]⟩
abbrev S1024x1 : Shape := ⟨2, ![1024, 1]⟩
abbrev S1024 : Shape := ⟨1, ![1024]⟩
abbrev S1x8192 : Shape := ⟨2, ![1, 8192]⟩
abbrev S8192x8192 : Shape := ⟨2, ![8192, 8192]⟩
abbrev S128x512 : Shape := ⟨2, ![128, 512]⟩
abbrev S128x1 : Shape := ⟨2, ![128, 1]⟩
abbrev S128x8192 : Shape := ⟨2, ![128, 8192]⟩
abbrev S512x8192 : Shape := ⟨2, ![512, 8192]⟩
abbrev S128 : Shape := ⟨1, ![128]⟩

abbrev nBuf : Space → Nat
  | .hbm => 6
  | .vmem => 16
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x1, .f32⟩
  | .hbm, ⟨4, _⟩ => ⟨S1x8192, .f32⟩
  | .hbm, ⟨5, _⟩ => ⟨S8192x8192, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x1, .f32⟩
  | .local _ .vmem, ⟨7, _⟩ => ⟨S1024x1, .f32⟩
  | .local _ .vmem, ⟨8, _⟩ => ⟨S128x512, .f32⟩
  | .local _ .vmem, ⟨9, _⟩ => ⟨S128x512, .f32⟩
  | .local _ .vmem, ⟨10, _⟩ => ⟨S8192x512, .f32⟩
  | .local _ .vmem, ⟨11, _⟩ => ⟨S128x1, .f32⟩
  | .local _ .vmem, ⟨12, _⟩ => ⟨S128x1, .f32⟩
  | .local _ .vmem, ⟨13, _⟩ => ⟨S1x8192, .f32⟩
  | .local _ .vmem, ⟨14, _⟩ => ⟨S128x8192, .f32⟩
  | .local _ .vmem, ⟨15, _⟩ => ⟨S128x8192, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x8192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S128x8192 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  broadcasts_S1024x1_S1024x512 : S1024x1.Broadcasts S1024x512
  inb_S1024x1_S1024x1_0_0 : ∀ a, (![0, 0] : Fin 2 → Nat) a + S1024x1.size a ≤ S1024x1.size a
  h_S1024x1 : 0 < S1024x1.numel
  shapeCasts_S8192x1_S1x8192 : S8192x1.ShapeCasts S1x8192
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S8192x512_S8192x512_0_0 : ∀ a, (![0, 0] : Fin 2 → Nat) a + S8192x512.size a ≤ S8192x512.size a
  h_S8192x512 : 0 < S8192x512.numel
  shapeCasts_S8192x512_S8192x512 : S8192x512.ShapeCasts S8192x512
  transposes_S8192x512_p1_0_S512x8192 : S8192x512.Transposes [1, 0] S512x8192
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S128x1_S128x8192 : S128x1.Broadcasts S128x8192
  broadcasts_S1x8192_S128x8192 : S1x8192.Broadcasts S128x8192
  iota_S128x8192_d0_w32 : S128x8192.Iotas .tc 32 [0]
  iota_S128x8192_d1_w32 : S128x8192.Iotas .tc 32 [1]
  reduces_S128x8192_S128 : S128x8192.Reduces [1] S128
  shapeCasts_S128_S128x1 : S128.ShapeCasts S128x1
  inb_S128x8192_S128x8192_0_0 : ∀ a, (![0, 0] : Fin 2 → Nat) a + S128x8192.size a ≤ S128x8192.size a
  h_S128x8192 : 0 < S128x8192.numel
  dot_S128x512_S512x8192_S128x8192_1_0_0_1_n_n_wf : DotDims.WF S128x512 S512x8192 S128x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .f32 = 32 ∨ (Rect.block (s := S8192x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x512.size a
  hwx0_2 : ∀ i : grid0.Coords, EltTy.bits .f32 = 32 ∨ (Rect.block (s := S8192x512) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x512.size a ≤ S8192x512.size a
  hwx1_0 : ∀ i : grid1.Coords, EltTy.bits .f32 = 32 ∨ (Rect.block (s := S8192x512) S128x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x512.size a ≤ S8192x512.size a
  hwx1_1 : ∀ i : grid1.Coords, EltTy.bits .f32 = 32 ∨ (Rect.block (s := S8192x512) S8192x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x1.size a ≤ S8192x1.size a
  hwx1_2 : ∀ i : grid1.Coords, EltTy.bits .f32 = 32 ∨ (Rect.block (s := S8192x1) S128x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x8192.size a ≤ S1x8192.size a
  hwx1_3 : ∀ i : grid1.Coords, EltTy.bits .f32 = 32 ∨ (Rect.block (s := S1x8192) S1x8192.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x8192.size a ≤ S8192x8192.size a
  hwx1_4 : ∀ i : grid1.Coords, EltTy.bits .f32 = 32 ∨ (Rect.block (s := S8192x8192) S128x8192.size (cc1_transform_4 i) (hinb1_4 i)).WholeWords (EltTy.packing .f32)

variable [Facts₀]

def dot_S128x512_S512x8192_S128x8192_1_0_0_1_n_n : DotDims S128x512 S512x8192 S128x8192 where
  lhsContracting := [1]
  rhsContracting := [0]
  lhsNonContracting := [0]
  rhsNonContracting := [1]
  lhsBatch := []
  rhsBatch := []
  wf := dot_S128x512_S512x8192_S128x8192_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1024x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0_0) S128x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S8192x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S128x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x8192.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S128x8192.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S512x8192 : Shape := ⟨2, ![512, 8192]⟩

abbrev nBuf : Space → Nat
  | .hbm => 58
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .i1⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S1x8192, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S512x8192, .f32⟩
  | .hbm, ⟨28, _⟩ => ⟨S8192x8192, .f32⟩
  | .hbm, ⟨29, _⟩ => ⟨S_, .f32⟩
  | .hbm, ⟨30, _⟩ => ⟨S8192x8192, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S8192x8192, .i32⟩
  | .hbm, ⟨36, _⟩ => ⟨S8192x8192, .i32⟩
  | .hbm, ⟨37, _⟩ => ⟨S_, .i32⟩
  | .hbm, ⟨38, _⟩ => ⟨S8192x8192, .i32⟩
  | .hbm, ⟨39, _⟩ => ⟨S8192x8192, .i32⟩
  | .hbm, ⟨40, _⟩ => ⟨S8192x8192, .i1⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .i1⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S8192x8192, .f32⟩
  | .hbm, ⟨57, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_call1_v0 : Ref sig .tc := ⟨.hbm, 53, rfl⟩
abbrev main_call1_v1 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x512_S512x8192_1_0 : S8192x512.Transposes [1, 0] S512x8192
  bcast_S_S8192x8192 : S_.BroadcastsInDim S8192x8192 (![] : Fin 0 → Fin S8192x8192.rank)
  transposes_S8192x8192_S8192x8192_1_0 : S8192x8192.Transposes [1, 0] S8192x8192
  reducesTo_S8192x8192_S8192_d1 : S8192x8192.ReducesTo [1] S8192
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.FeatRegionBits.lean ====
/-
  The first pallas_call (the feature kernel) as a pipeline region, at any float instance.

  At grid point t the body reads rows 1024·t … 1024·t+1023 of the two arguments (windows 0 and 1, blocks of
  1024 × 512), and stores one whole block into each of its two result windows: window 2 (1024 × 512) receives
  the row-normalised squared difference, window 3 (1024 × 1) the sum of squares of each normalised row. Both
  stores cover their staging buffer, so what the body leaves in each is one pure function of the two input
  blocks (the payloads of the kernel's skeleton). The body keeps nothing from one point to the next.

  Stated at a PARAMETER V: the contents of the core's buffers when the region is entered.
-/
import proofs.«149396_j55465207660970_1_alg».proof.Proof.Gen.Kernel.Launch
import proofs.«149396_j55465207660970_1_alg».proof.Proof.Gen.Kernel.Skeleton
import proofs.«149396_j55465207660970_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Feat

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of the first argument's window holds rows 1024·t … of that argument at every point, for any
    proof data over V whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the second argument's window. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 1024 × 512 block, and the whole 1024 × 1 column: the only rectangles the body touches. -/
abbrev rBlock : Rect S1024x512 := Rect.unit (s := S1024x512) ![0, 0] S1024x512.size inb_S1024x512_S1024x512_0_0
abbrev rCol : Rect S1024x1 := Rect.unit (s := S1024x1) ![0, 0] S1024x1.size inb_S1024x1_S1024x1_0_0

/-- What the body leaves in the feature window's buffer: its one store, of the normalised squared difference of the
    two input blocks. -/
def featOut (x0 x1 : Vec F S1024x512 .f32) : Vec F S1024x512 .f32 :=
  View.canon [⟨rBlock, k0_pay1 (View.ld x0 rBlock) (View.ld x1 rBlock)⟩]

/-- What the body leaves in the squared-norm window's buffer: its one store, of the row sums of squares of the
    normalised block. -/
def normOut (x0 x1 : Vec F S1024x512 .f32) : Vec F S1024x1 .f32 :=
  View.canon [⟨rCol, k0_pay2 (View.ld x0 rBlock) (View.ld x1 rBlock)⟩]

theorem featCover (p0 : Vec F S1024x512 .f32) (y : S1024x512.Idx) :
    ∃ pc ∈ ([⟨rBlock, p0⟩] : List (View.Piece (Elt F) S1024x512 .f32)), y ∈ pc.1.set :=
  View.cover_of_tiled [⟨rBlock, p0⟩] S1024x512.size (by rfl) y

theorem normCover (p0 : Vec F S1024x1 .f32) (y : S1024x1.Idx) :
    ∃ pc ∈ ([⟨rCol, p0⟩] : List (View.Piece (Elt F) S1024x1 .f32)), y ∈ pc.1.set :=
  View.cover_of_tiled [⟨rCol, p0⟩] S1024x1.size (by rfl) y

set_option maxHeartbeats 1000000 in
/-- The body on whole staging buffers: the inputs' at contents x0, x1 and the outputs' at anything; it ends with the
    inputs' unchanged and the outputs' at featOut, normOut of the inputs'. -/
theorem sound_kernel0 (c : Dev nD) (E : Set ℕ) (i : grid0.Coords)
    (arg1 : Memref sig .tc .vmem S1024x512 .f32) (harg1 : arg1.IsWhole) (arg2 : Memref sig .tc .vmem S1024x512 .f32) (harg2 : arg2.IsWhole)
    (arg3 : Memref sig .tc .vmem S1024x512 .f32) (harg3 : arg3.IsWhole) (arg4 : Memref sig .tc .vmem S1024x1 .f32) (harg4 : arg4.IsWhole)
    (x0 x1 : Vec F S1024x512 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (featOut x0 x1) ∗ owns (c : Thread nD τ) arg4 fullShare (normOut x0 x1)) -∗ K ⟨⟩))
      ⊢ wp frame (wpE (defs₀ (F := F)) Variants.none c none) E (cc0__feature_kernel i arg1 harg1 arg2 harg2 arg3 harg3 arg4 harg4) K := by
  simp only [cc0__feature_kernel_eq_skeleton]; unfold cc0__feature_kernel_skel
  unfold owns
  iintro ⟨⟨%f0, %hf0, H0⟩, ⟨%f1, %hf1, H1⟩, ⟨%d2, %f2, -, H2⟩, ⟨%d3, %f3, -, H3⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (featCover _)
  · iexists _; isplitr
    swap; · iexact H3
    ipureintro
    exact View.read_writes_eq_canon _ _ _ (normCover _)

/-- The proof data of the first pipeline on core c: the arrays as the region finds them; after the body at point t
    each input buffer at its block and each output buffer at featOut / normOut of the two input blocks; nothing kept
    across points, nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => featOut (iblk0 V c 0 t) (iblk0 V c 1 t)
    | ⟨3, _⟩ => normOut (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = featOut (iblk0 V c 0 t) (iblk0 V c 1 t) := by dsimp only [dat0]
theorem after0_3 (c : Dev nD) (t : Fin cfg0.N) : (dat0 V c).after 3 t = normOut (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the first pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Feat

end
-- ==== Proof.AdjRegionBits.lean ====
/-
  The second pallas_call (the adjacency kernel) as a pipeline region, at any float instance.

  At grid point t the body reads four input windows — rows 128·t … 128·t+127 of the feature matrix (window 0,
  128 × 512), the WHOLE feature matrix (window 1, 8192 × 512: the same array as window 0, read a second time),
  rows 128·t … of the squared-norm column (window 2, 128 × 1) and the whole squared-norm row (window 3, 1 × 8192) —
  and stores one whole 128 × 8192 strip into its result window (window 4): the strip of pairwise squared distances
  plus the identity, each row divided by its sum. The store covers the staging buffer, so what the body leaves there
  is one pure function of the grid point and the four input blocks. Nothing is kept from one point to the next.

  Windows 0 and 1 are two readers of ONE array: the core holds it through each at half of the full share.

  Stated at a PARAMETER V: the contents of the core's buffers when the region is entered.
-/
import proofs.«149396_j55465207660970_1_alg».proof.Proof.Gen.Kernel.Launch
import proofs.«149396_j55465207660970_1_alg».proof.Proof.Gen.Kernel.Skeleton
import proofs.«149396_j55465207660970_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Adj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point — fetched there, or (the two whole-array
    windows after the first point) still holding the same block —, for any proof data over V whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole of each staging buffer: the only rectangles the body touches. -/
abbrev rRows : Rect S128x512 := Rect.unit (s := S128x512) ![0, 0] S128x512.size inb_S128x512_S128x512_0_0
abbrev rAll : Rect S8192x512 := Rect.unit (s := S8192x512) ![0, 0] S8192x512.size inb_S8192x512_S8192x512_0_0
abbrev rNormCol : Rect S128x1 := Rect.unit (s := S128x1) ![0, 0] S128x1.size inb_S128x1_S128x1_0_0
abbrev rNormRow : Rect S1x8192 := Rect.unit (s := S1x8192) ![0, 0] S1x8192.size inb_S1x8192_S1x8192_0_0
abbrev rStrip : Rect S128x8192 := Rect.unit (s := S128x8192) ![0, 0] S128x8192.size inb_S128x8192_S128x8192_0_0

/-- What the body leaves in the result window's buffer at grid coordinates i: its one store, of the normalised strip
    computed from the four input blocks. -/
def stripOut (i : grid1.Coords) (x0 : Vec F S128x512 .f32) (x1 : Vec F S8192x512 .f32) (x2 : Vec F S128x1 .f32) (x3 : Vec F S1x8192 .f32) :
    Vec F S128x8192 .f32 :=
  View.canon [⟨rStrip, k1_pay1 i (View.ld x0 rRows) (View.ld x1 rAll) (View.ld x2 rNormCol) (View.ld x3 rNormRow)⟩]

theorem stripCover (p0 : Vec F S128x8192 .f32) (y : S128x8192.Idx) :
    ∃ pc ∈ ([⟨rStrip, p0⟩] : List (View.Piece (Elt F) S128x8192 .f32)), y ∈ pc.1.set :=
  View.cover_of_tiled [⟨rStrip, p0⟩] S128x8192.size (by rfl) y

set_option maxHeartbeats 1000000 in
/-- The body on whole staging buffers: the inputs' at contents x0 … x3 and the output's at anything; it ends with the
    inputs' unchanged and the output's at stripOut of them. -/
theorem sound_kernel1 (c : Dev nD) (E : Set ℕ) (i : grid1.Coords)
    (arg1 : Memref sig .tc .vmem S128x512 .f32) (harg1 : arg1.IsWhole) (arg2 : Memref sig .tc .vmem S8192x512 .f32) (harg2 : arg2.IsWhole)
    (arg3 : Memref sig .tc .vmem S128x1 .f32) (harg3 : arg3.IsWhole) (arg4 : Memref sig .tc .vmem S1x8192 .f32) (harg4 : arg4.IsWhole)
    (arg5 : Memref sig .tc .vmem S128x8192 .f32) (harg5 : arg5.IsWhole)
    (x0 : Vec F S128x512 .f32) (x1 : Vec F S8192x512 .f32) (x2 : Vec F S128x1 .f32) (x3 : Vec F S1x8192 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (stripOut i x0 x1 x2 x3)) -∗ K ⟨⟩))
      ⊢ wp frame (wpE (defs₀ (F := F)) Variants.none c none) E (cc1__adj_kernel i arg1 harg1 arg2 harg2 arg3 harg3 arg4 harg4 arg5 harg5) K := by
  simp only [cc1__adj_kernel_eq_skeleton]; unfold cc1__adj_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  · iexists _; isplitr
    swap; · iexact H4
    ipureintro
    exact View.read_writes_eq_canon _ _ _ (stripCover _)

/-- The proof data of the second pipeline on core c: the arrays as the region finds them; after the body at point t
    each input buffer at its block and the output buffer at stripOut of the four input blocks; nothing kept across
    points, nothing owed; the feature matrix held through windows 0 and 1 at the two halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => stripOut (grid1.coords t) (iblk1 V c 0 t) (iblk1 V c 1 t) (iblk1 V c 2 t) (iblk1 V c 3 t)
  Φ _ := Pipeline.ΦA spec1 c
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = stripOut (grid1.coords t) (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- The shares the core holds the five arrays at. -/
theorem share1_0 (c : Dev nD) : (dat1 V c).share 0 = fullShare.left := rfl
theorem share1_1 (c : Dev nD) : (dat1 V c).share 1 = fullShare.right := rfl
theorem share1_2 (c : Dev nD) : (dat1 V c).share 2 = fullShare := rfl
theorem share1_3 (c : Dev nD) : (dat1 V c).share 3 = fullShare := rfl
theorem share1_4 (c : Dev nD) : (dat1 V c).share 4 = fullShare := rfl

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the second pipeline, at every point. -/
theorem body_obligation1 (c : Dev nD) : BodyObligation (dat1 (F := F) V c) (defs₀ (F := F)) Variants.none () Set.univ := fun t => by
  rw [bigSep_W1, bigSep_W1]
  exact sound_body1 V c t

end Cert.Kernel.Adj

end
-- ==== Proof.AdjArraysBits.lean ====
/-
  The second region's arrays, held through windows that share one of them.

  Its five windows stand on FOUR buffers: the feature matrix (windows 0 and 1), the squared-norm column (window 2),
  the squared-norm row (window 3) and the result (window 4). Entering the region the core gives up the four buffers,
  each whole at the full share, and holds the feature matrix through window 0 at the left half of that share and
  through window 1 at the right half; leaving it, the two halves — both still at the entry contents, neither window
  writes — make the full share again, and the result buffer holds what the write-backs left.
-/
import proofs.«149396_j55465207660970_1_alg».proof.Proof.AdjRegionBits

set_option maxRecDepth 16384

noncomputable section

namespace Cert.Kernel.Adj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The four buffers behind the five windows, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v0_0) ↦{fullShare} V main_v0_0) ∗ (((c : Thread nD τ).loc main_v0_1) ↦{fullShare} V main_v0_1)
          ∗ (((c : Thread nD τ).loc main_v1) ↦{fullShare} V main_v1) ∗ (((c : Thread nD τ).loc main_v2) ↦{fullShare} V main_v2)) := by
  unfold Pipeline.arrBufs
  exact bigSep_eq_bigSepL_of_eq [main_v0_0, main_v0_1, main_v1, main_v2] (by decide) (by decide) _

variable (V : (c : Dev nD) → (b : Ref sig .tc) → Buf (Elt F) ((c : Thread nD τ).loc b))

/-- The region's hold on its arrays, window by window: the feature matrix twice, at the two halves of the full share. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v0_0) ↦{fullShare.left} G 0) ∗ (((c : Thread nD τ).loc main_v0_0) ↦{fullShare.right} G 1)
          ∗ (((c : Thread nD τ).loc main_v0_1) ↦{fullShare} G 2) ∗ (((c : Thread nD τ).loc main_v1) ↦{fullShare} G 3)
          ∗ (((c : Thread nD τ).loc main_v2) ↦{fullShare} G 4)) := by
  unfold Dat.arrays
  rw [bigSep_W1, (arr_whole1 0).set_eq_univ, (arr_whole1 2).set_eq_univ, (arr_whole1 3).set_eq_univ,
    (arr_whole1 4).set_eq_univ, share1_0, share1_1, share1_2, share1_3, share1_4]

/-- ENTRY: the four buffers at the entry contents make the region's hold on its arrays at the entry contents, the
    feature matrix's full share parted into its halves. -/
theorem arrays1_split (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [arrBufs1_eq, arrays1_eq]
  iintro ⟨Hf, Hc, Hr, Ho⟩
  ihave Hf := (pointsTo_share (PosShare.mem_left_op_right fullShare)).1 $$ Hf
  icases Hf with ⟨Hf₁, Hf₂⟩
  isplitl [Hf₁]; · iexact Hf₁
  isplitl [Hf₂]; · iexact Hf₂
  isplitl [Hc]; · iexact Hc
  isplitl [Hr]; · iexact Hr
  iexact Ho

/-- The input windows' arrays are never written: after any number of points they hold the entry contents. -/
theorem arrAt1_0 (c : Dev nD) (n : ℕ) : (dat1 V c).arrAt 0 n = V c main_v0_0 := (dat1 V c).arrAt_in 0 rfl n
theorem arrAt1_1 (c : Dev nD) (n : ℕ) : (dat1 V c).arrAt 1 n = V c main_v0_0 := (dat1 V c).arrAt_in 1 rfl n
theorem arrAt1_2 (c : Dev nD) (n : ℕ) : (dat1 V c).arrAt 2 n = V c main_v0_1 := (dat1 V c).arrAt_in 2 rfl n
theorem arrAt1_3 (c : Dev nD) (n : ℕ) : (dat1 V c).arrAt 3 n = V c main_v1 := (dat1 V c).arrAt_in 3 rfl n

/-- EXIT: the region's hold on its arrays at the exit contents makes the four buffers whole again, at contents V'
    that agree with the entry contents but for the result buffer, which holds what the write-backs left. -/
theorem arrays1_join (c : Dev nD) (V' : (b : Ref sig .tc) → Buf (Elt F) ((c : Thread nD τ).loc b))
    (h0 : V' main_v0_0 = V c main_v0_0) (h1 : V' main_v0_1 = V c main_v0_1) (h2 : V' main_v1 = V c main_v1)
    (h3 : V' main_v2 = (dat1 V c).arrAt 4 cfg1.N) :
    ((dat1 V c).arrays ((dat1 V c).arrAt · cfg1.N) : sProp 𝕄)
      ⊢ Pipeline.arrBufs (Ix := Unit) (Name := ℕ) (U := UR sig nD τ) (Lvl := ℕ) spec1 c V' := by
  rw [arrBufs1_eq, arrays1_eq, arrAt1_0, arrAt1_1, arrAt1_2, arrAt1_3, h0, h1, h2, h3]
  iintro ⟨Hf₁, Hf₂, Hc, Hr, Ho⟩
  ihave Hf := (pointsTo_share (PosShare.mem_left_op_right fullShare)).2 $$ [Hf₁ Hf₂]
  · isplitl [Hf₁] <;> iassumption
  isplitl [Hf]; · iexact Hf
  isplitl [Hc]; · iexact Hc
  isplitl [Hr]; · iexact Hr
  iexact Ho

end Cert.Kernel.Adj

end
-- ==== Proof.MainRunBits.lean ====
/-
  The whole program's run: the feature region, the host reshape of the squared-norm column into a row, the adjacency
  region — with every unscoped buffer's final contents NAMED.

  Between two items of @main core c holds each of its six unscoped buffers whole, at contents that are folded through
  @main from the launch memory m:
    * at launch, m;
    * after the first region, m but for the two buffers it writes back, which hold what its eight points wrote
      (the proof data's arrAt … 8);
    * after the reshape, that, with the squared-norm row the reshape of the squared-norm column;
    * after the second region, that but for the result buffer, which holds what its sixty-four points wrote.
  The second region is entered through windows two of which stand on one buffer (the feature matrix): its full share is
  parted at the entry and rejoined at the exit. No item writes an argument.
-/
import proofs.«149396_j55465207660970_1_alg».proof.Proof.FeatRegionBits
import proofs.«149396_j55465207660970_1_alg».proof.Proof.AdjArraysBits
import proofs.«149396_j55465207660970_1_alg».proof.Proof.Gen.Kernel.Regions

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main -/

/-- At launch. -/
abbrev W0 : Dev nD → Valuation τ sig (Elt F) := fun c b => m ((c : Dev nD), b)
abbrev V0 : (c : Dev nD) → (b : Ref sig .tc) → Buf (Elt F) ((c : Thread nD τ).loc b) := fun c b => W0 m c b

/-- After the feature region: its four arrays at what the pipeline leaves (the arguments as entered, each result's
    write-backs folded), every other buffer as launched. -/
def W1 (c : Dev nD) : Valuation τ sig (Elt F) :=
  Pipeline.withArrays spec0 c (W0 m c) fun w => (Feat.dat0 (V0 m) c).arrAt w cfg0.N
theorem W1_arr (c : Dev nD) (w : Fin cfg0.W) :
    W1 m c (Proc.devRef .tc (Pipeline.arrRef spec0 w)) = (Feat.dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (Feat.dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the reshape. -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b

/-- After the adjacency region: the result buffer at what its write-backs leave, every other buffer as entered. -/
def W3 (c : Dev nD) : Valuation τ sig (Elt F) :=
  Function.update (W2 m c) (Proc.devRef .tc main_v2) ((Adj.dat1 (V2 m) c).arrAt 4 cfg1.N)
abbrev V3 : (c : Dev nD) → (b : Ref sig .tc) → Buf (Elt F) ((c : Thread nD τ).loc b) := fun c b => W3 m c b
theorem W3_main_v2 (c : Dev nD) : W3 m c (Proc.devRef .tc main_v2) = (Adj.dat1 (V2 m) c).arrAt 4 cfg1.N := by
  unfold W3; exact Function.update_self ..
theorem W3_of_ne (c : Dev nD) (b : Ref sig .tc) (hb : b ≠ main_v2) : W3 m c (Proc.devRef .tc b) = W2 m c (Proc.devRef .tc b) := by
  unfold W3; exact Function.update_of_ne (StableHlo.devRef_ne_of_ne hb) ..

/-- The reshape writes the squared-norm row only. -/
theorem W2_of_ne (c : Dev nD) (b : Ref sig .tc) (hb : b ∉ hostOps1_W) : W2 m c (Proc.devRef .tc b) = W1 m c (Proc.devRef .tc b) :=
  StableHlo.after_of_writes_sub hostOps1 _ hostOps1_writes hb

/-! ## The proof data family and the thread state -/

/-- Both pipelines' proof data, each at its region's entry contents: a literal match. -/
def pdats : (p : Fin 2) → (c : Dev nD) → Dat τ (Elt F) Unit ℕ (UR sig nD τ) ℕ (Pipeline.pin (pcfgs (F := F)) adm p) c
  | ⟨0, _⟩ => fun c => Feat.dat0 (V0 m) c
  | ⟨1, _⟩ => fun c => Adj.dat1 (V2 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- The last thread state without the owes. -/
abbrev Tₙ (c : Dev nD) : sProp 𝕄 := iprop(StableHlo.held (c : Thread nD τ) (Pipeline.ucRefs τ sig) (W3 m c) ∗ ∃ r, prngReg c r)

/-- The reshape as a segment from the contents after the first region. -/
abbrev hseg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- The feature region: entered from every unscoped buffer at the launch contents, left at W1. Its four arrays (all
    distinct) are split out of the unscoped buffers and put back at the exit contents; the generator register passes
    through the invariant; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Feat.body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The two argument buffers are all the second region leaves aside, and it does not change them. -/
theorem rest1_eq (c : Dev nD) :
    (Pipeline.unscopedRest (Ix := Unit) (Name := ℕ) (U := UR sig nD τ) (Lvl := ℕ) spec1 c (V3 m c) : sProp 𝕄)
      = Pipeline.unscopedRest (Ix := Unit) (Name := ℕ) (U := UR sig nD τ) (Lvl := ℕ) spec1 c (V2 m c) := by
  rw [unscopedRest1_eq, unscopedRest1_eq,
    show V3 m c main_arg0 = V2 m c main_arg0 from W3_of_ne m c main_arg0 (by decide),
    show V3 m c main_arg1 = V2 m c main_arg1 from W3_of_ne m c main_arg1 (by decide)]

set_option backward.isDefEq.respectTransparency.types false in
/-- The adjacency region: entered from every unscoped buffer at W2, left at W3. The four buffers behind its five
    windows are split out of the unscoped buffers — the feature matrix's share parted between windows 0 and 1 — and
    put back whole at the exit contents; the rest as for the first region. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Adj.body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsp := Pipeline.unscopedBufs_split₀ (Ix := Unit) (Name := ℕ) (U := UR sig nD τ) (Lvl := ℕ) (nD := nD) (τ := τ) cfgs 1
      winFacts₀1.arr_unscoped c (V2 m c)
    rw [Pipeline.unscopedBufs_held] at hsp
    have hsplit : (StableHlo.held (c : Thread nD τ) (Pipeline.ucRefs τ sig) (W2 m c) : sProp 𝕄)
        ⊢ iprop((Adj.dat1 (V2 m) c).arrays ((Adj.dat1 (V2 m) c).arrAt · 0)
            ∗ Pipeline.unscopedRest (Ix := Unit) (Name := ℕ) (U := UR sig nD τ) (Lvl := ℕ) spec1 c (V2 m c)) := by
      rw [hsp]; exact sep_mono (Adj.arrays1_split (V2 m) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hsp := Pipeline.unscopedBufs_split₀ (Ix := Unit) (Name := ℕ) (U := UR sig nD τ) (Lvl := ℕ) (nD := nD) (τ := τ) cfgs 1
      winFacts₀1.arr_unscoped c (V3 m c)
    rw [Pipeline.unscopedBufs_held] at hsp
    have hjoin := Adj.arrays1_join (V2 m) c (V3 m c)
      (W3_of_ne m c main_v0_0 (by decide)) (W3_of_ne m c main_v0_1 (by decide)) (W3_of_ne m c main_v1 (by decide)) (W3_main_v2 m c)
    have hback : iprop((Adj.dat1 (V2 m) c).arrays ((Adj.dat1 (V2 m) c).arrAt · cfg1.N)
          ∗ Pipeline.unscopedRest (Ix := Unit) (Name := ℕ) (U := UR sig nD τ) (Lvl := ℕ) spec1 c (V2 m c))
        ⊢ (StableHlo.held (c : Thread nD τ) (Pipeline.ucRefs τ sig) (W3 m c) : sProp 𝕄) := by
      rw [hsp, ← rest1_eq]; exact sep_mono hjoin .rfl
    iintro ⟨Ha, HO, HY, Hrest⟩
    imodintro
    isplitl [Ha Hrest HY]
    · isplitl [Ha Hrest]
      · iapply hback
        isplitl [Ha]; · iexact Ha
        iexact Hrest
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m), .host (hseg1 m), .region (reg1 m) ]

theorem main_run (c : Dev nD) : main (F := F) c = Pipeline.Seg.run (segs m) := (main_chain c).trans (by chain_rfl)

set_option backward.isDefEq.respectTransparency.types false in
/-- THE RUN. From any memory m with zero counters every weakly fair execution of @main terminates, nothing faulting,
    and in every final state each unscoped buffer of core c holds W3 m c. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-! ## What the final contents are, buffer by buffer -/

/-- Each argument ends as launched. -/
theorem W3_main_arg0 (c : Dev nD) : W3 m c (Proc.devRef .tc main_arg0) = m ((c : Thread nD τ).loc main_arg0) :=
  (W3_of_ne m c main_arg0 (by decide)).trans <| (W2_of_ne m c main_arg0 (by decide)).trans <|
    (W1_arr m c 0).trans (((Feat.dat0 (V0 m) c).arrAt_in 0 rfl _).trans (Feat.A_eq0 (V0 m) c 0))
theorem W3_main_arg1 (c : Dev nD) : W3 m c (Proc.devRef .tc main_arg1) = m ((c : Thread nD τ).loc main_arg1) :=
  (W3_of_ne m c main_arg1 (by decide)).trans <| (W2_of_ne m c main_arg1 (by decide)).trans <|
    (W1_arr m c 1).trans (((Feat.dat0 (V0 m) c).arrAt_in 1 rfl _).trans (Feat.A_eq0 (V0 m) c 1))

/-- The feature matrix ends at what the first region's write-backs left. -/
theorem W3_main_v0_0 (c : Dev nD) : W3 m c (Proc.devRef .tc main_v0_0) = (Feat.dat0 (V0 m) c).arrAt 2 cfg0.N :=
  (W3_of_ne m c main_v0_0 (by decide)).trans <| (W2_of_ne m c main_v0_0 (by decide)).trans (W1_arr m c 2)

/-- What the second region is handed. -/
theorem V2_main_v0_0 (c : Dev nD) : V2 m c main_v0_0 = (Feat.dat0 (V0 m) c).arrAt 2 cfg0.N :=
  (W2_of_ne m c main_v0_0 (by decide)).trans (W1_arr m c 2)
theorem V2_main_v0_1 (c : Dev nD) : V2 m c main_v0_1 = (Feat.dat0 (V0 m) c).arrAt 3 cfg0.N :=
  (W2_of_ne m c main_v0_1 (by decide)).trans (W1_arr m c 3)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W3_main_arg0 m c),
     (h c _ (mem_uc main_arg1 (by decide))).trans (W3_main_arg1 m c)⟩) (run_main m ρ)

end Cert.Kernel.Run

end
-- ==== Proof.FeatRegion.lean ====
/-
  The first pallas_call (the feature kernel) as a pipeline region, at any float instance.

  At grid point t the body reads rows 1024·t … 1024·t+1023 of the two arguments (windows 0 and 1, blocks of
  1024 × 512), and stores one whole block into each of its two result windows: window 2 (1024 × 512) receives
  the row-normalised squared difference, window 3 (1024 × 1) the sum of squares of each normalised row. Both
  stores cover their staging buffer, so what the body leaves in each is one pure function of the two input
  blocks (the payloads of the kernel's skeleton). The body keeps nothing from one point to the next.

  Stated at a PARAMETER V: the contents of the core's buffers when the region is entered.
-/
import proofs.«149396_j55465207660970_1_alg».proof.Proof.Gen.KernelIdeal.Launch
import proofs.«149396_j55465207660970_1_alg».proof.Proof.Gen.KernelIdeal.Skeleton
import proofs.«149396_j55465207660970_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Feat

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer of the first argument's window holds rows 1024·t … of that argument at every point, for any
    proof data over V whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the second argument's window. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 1024 × 512 block, and the whole 1024 × 1 column: the only rectangles the body touches. -/
abbrev rBlock : Rect S1024x512 := Rect.unit (s := S1024x512) ![0, 0] S1024x512.size inb_S1024x512_S1024x512_0_0
abbrev rCol : Rect S1024x1 := Rect.unit (s := S1024x1) ![0, 0] S1024x1.size inb_S1024x1_S1024x1_0_0

/-- What the body leaves in the feature window's buffer: its one store, of the normalised squared difference of the
    two input blocks. -/
def featOut (x0 x1 : Vec F S1024x512 .f32) : Vec F S1024x512 .f32 :=
  View.canon [⟨rBlock, k0_pay1 (View.ld x0 rBlock) (View.ld x1 rBlock)⟩]

/-- What the body leaves in the squared-norm window's buffer: its one store, of the row sums of squares of the
    normalised block. -/
def normOut (x0 x1 : Vec F S1024x512 .f32) : Vec F S1024x1 .f32 :=
  View.canon [⟨rCol, k0_pay2 (View.ld x0 rBlock) (View.ld x1 rBlock)⟩]

theorem featCover (p0 : Vec F S1024x512 .f32) (y : S1024x512.Idx) :
    ∃ pc ∈ ([⟨rBlock, p0⟩] : List (View.Piece (Elt F) S1024x512 .f32)), y ∈ pc.1.set :=
  View.cover_of_tiled [⟨rBlock, p0⟩] S1024x512.size (by rfl) y

theorem normCover (p0 : Vec F S1024x1 .f32) (y : S1024x1.Idx) :
    ∃ pc ∈ ([⟨rCol, p0⟩] : List (View.Piece (Elt F) S1024x1 .f32)), y ∈ pc.1.set :=
  View.cover_of_tiled [⟨rCol, p0⟩] S1024x1.size (by rfl) y

set_option maxHeartbeats 1000000 in
/-- The body on whole staging buffers: the inputs' at contents x0, x1 and the outputs' at anything; it ends with the
    inputs' unchanged and the outputs' at featOut, normOut of the inputs'. -/
theorem sound_kernel0 (c : Dev nD) (E : Set ℕ) (i : grid0.Coords)
    (arg1 : Memref sig .tc .vmem S1024x512 .f32) (harg1 : arg1.IsWhole) (arg2 : Memref sig .tc .vmem S1024x512 .f32) (harg2 : arg2.IsWhole)
    (arg3 : Memref sig .tc .vmem S1024x512 .f32) (harg3 : arg3.IsWhole) (arg4 : Memref sig .tc .vmem S1024x1 .f32) (harg4 : arg4.IsWhole)
    (x0 x1 : Vec F S1024x512 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (featOut x0 x1) ∗ owns (c : Thread nD τ) arg4 fullShare (normOut x0 x1)) -∗ K ⟨⟩))
      ⊢ wp frame (wpE (defs₀ (F := F)) Variants.none c none) E (cc0__feature_kernel i arg1 harg1 arg2 harg2 arg3 harg3 arg4 harg4) K := by
  simp only [cc0__feature_kernel_eq_skeleton]; unfold cc0__feature_kernel_skel
  unfold owns
  iintro ⟨⟨%f0, %hf0, H0⟩, ⟨%f1, %hf1, H1⟩, ⟨%d2, %f2, -, H2⟩, ⟨%d3, %f3, -, H3⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (featCover _)
  · iexists _; isplitr
    swap; · iexact H3
    ipureintro
    exact View.read_writes_eq_canon _ _ _ (normCover _)

/-- The proof data of the first pipeline on core c: the arrays as the region finds them; after the body at point t
    each input buffer at its block and each output buffer at featOut / normOut of the two input blocks; nothing kept
    across points, nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => featOut (iblk0 V c 0 t) (iblk0 V c 1 t)
    | ⟨3, _⟩ => normOut (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = featOut (iblk0 V c 0 t) (iblk0 V c 1 t) := by dsimp only [dat0]
theorem after0_3 (c : Dev nD) (t : Fin cfg0.N) : (dat0 V c).after 3 t = normOut (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the first pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Feat

end
-- ==== Proof.AdjRegion.lean ====
/-
  The second pallas_call (the adjacency kernel) as a pipeline region, at any float instance.

  At grid point t the body reads four input windows — rows 128·t … 128·t+127 of the feature matrix (window 0,
  128 × 512), the WHOLE feature matrix (window 1, 8192 × 512: the same array as window 0, read a second time),
  rows 128·t … of the squared-norm column (window 2, 128 × 1) and the whole squared-norm row (window 3, 1 × 8192) —
  and stores one whole 128 × 8192 strip into its result window (window 4): the strip of pairwise squared distances
  plus the identity, each row divided by its sum. The store covers the staging buffer, so what the body leaves there
  is one pure function of the grid point and the four input blocks. Nothing is kept from one point to the next.

  Windows 0 and 1 are two readers of ONE array: the core holds it through each at half of the full share.

  Stated at a PARAMETER V: the contents of the core's buffers when the region is entered.
-/
import proofs.«149396_j55465207660970_1_alg».proof.Proof.Gen.KernelIdeal.Launch
import proofs.«149396_j55465207660970_1_alg».proof.Proof.Gen.KernelIdeal.Skeleton
import proofs.«149396_j55465207660970_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Adj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's staging buffer holds its block at every point — fetched there, or (the two whole-array
    windows after the first point) still holding the same block —, for any proof data over V whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole of each staging buffer: the only rectangles the body touches. -/
abbrev rRows : Rect S128x512 := Rect.unit (s := S128x512) ![0, 0] S128x512.size inb_S128x512_S128x512_0_0
abbrev rAll : Rect S8192x512 := Rect.unit (s := S8192x512) ![0, 0] S8192x512.size inb_S8192x512_S8192x512_0_0
abbrev rNormCol : Rect S128x1 := Rect.unit (s := S128x1) ![0, 0] S128x1.size inb_S128x1_S128x1_0_0
abbrev rNormRow : Rect S1x8192 := Rect.unit (s := S1x8192) ![0, 0] S1x8192.size inb_S1x8192_S1x8192_0_0
abbrev rStrip : Rect S128x8192 := Rect.unit (s := S128x8192) ![0, 0] S128x8192.size inb_S128x8192_S128x8192_0_0

/-- What the body leaves in the result window's buffer at grid coordinates i: its one store, of the normalised strip
    computed from the four input blocks. -/
def stripOut (i : grid1.Coords) (x0 : Vec F S128x512 .f32) (x1 : Vec F S8192x512 .f32) (x2 : Vec F S128x1 .f32) (x3 : Vec F S1x8192 .f32) :
    Vec F S128x8192 .f32 :=
  View.canon [⟨rStrip, k1_pay1 i (View.ld x0 rRows) (View.ld x1 rAll) (View.ld x2 rNormCol) (View.ld x3 rNormRow)⟩]

theorem stripCover (p0 : Vec F S128x8192 .f32) (y : S128x8192.Idx) :
    ∃ pc ∈ ([⟨rStrip, p0⟩] : List (View.Piece (Elt F) S128x8192 .f32)), y ∈ pc.1.set :=
  View.cover_of_tiled [⟨rStrip, p0⟩] S128x8192.size (by rfl) y

set_option maxHeartbeats 1000000 in
/-- The body on whole staging buffers: the inputs' at contents x0 … x3 and the output's at anything; it ends with the
    inputs' unchanged and the output's at stripOut of them. -/
theorem sound_kernel1 (c : Dev nD) (E : Set ℕ) (i : grid1.Coords)
    (arg1 : Memref sig .tc .vmem S128x512 .f32) (harg1 : arg1.IsWhole) (arg2 : Memref sig .tc .vmem S8192x512 .f32) (harg2 : arg2.IsWhole)
    (arg3 : Memref sig .tc .vmem S128x1 .f32) (harg3 : arg3.IsWhole) (arg4 : Memref sig .tc .vmem S1x8192 .f32) (harg4 : arg4.IsWhole)
    (arg5 : Memref sig .tc .vmem S128x8192 .f32) (harg5 : arg5.IsWhole)
    (x0 : Vec F S128x512 .f32) (x1 : Vec F S8192x512 .f32) (x2 : Vec F S128x1 .f32) (x3 : Vec F S1x8192 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (stripOut i x0 x1 x2 x3)) -∗ K ⟨⟩))
      ⊢ wp frame (wpE (defs₀ (F := F)) Variants.none c none) E (cc1__adj_kernel i arg1 harg1 arg2 harg2 arg3 harg3 arg4 harg4 arg5 harg5) K := by
  simp only [cc1__adj_kernel_eq_skeleton]; unfold cc1__adj_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  · iexists _; isplitr
    swap; · iexact H4
    ipureintro
    exact View.read_writes_eq_canon _ _ _ (stripCover _)

/-- The proof data of the second pipeline on core c: the arrays as the region finds them; after the body at point t
    each input buffer at its block and the output buffer at stripOut of the four input blocks; nothing kept across
    points, nothing owed; the feature matrix held through windows 0 and 1 at the two halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => stripOut (grid1.coords t) (iblk1 V c 0 t) (iblk1 V c 1 t) (iblk1 V c 2 t) (iblk1 V c 3 t)
  Φ _ := Pipeline.ΦA spec1 c
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = stripOut (grid1.coords t) (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- The shares the core holds the five arrays at. -/
theorem share1_0 (c : Dev nD) : (dat1 V c).share 0 = fullShare.left := rfl
theorem share1_1 (c : Dev nD) : (dat1 V c).share 1 = fullShare.right := rfl
theorem share1_2 (c : Dev nD) : (dat1 V c).share 2 = fullShare := rfl
theorem share1_3 (c : Dev nD) : (dat1 V c).share 3 = fullShare := rfl
theorem share1_4 (c : Dev nD) : (dat1 V c).share 4 = fullShare := rfl

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the second pipeline, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Adj

end
-- ==== Proof.AdjArrays.lean ====
/-
  The second region's arrays, held through windows that share one of them.

  Its five windows stand on FOUR buffers: the feature matrix (windows 0 and 1), the squared-norm column (window 2),
  the squared-norm row (window 3) and the result (window 4). Entering the region the core gives up the four buffers,
  each whole at the full share, and holds the feature matrix through window 0 at the left half of that share and
  through window 1 at the right half; leaving it, the two halves — both still at the entry contents, neither window
  writes — make the full share again, and the result buffer holds what the write-backs left.
-/
import proofs.«149396_j55465207660970_1_alg».proof.Proof.AdjRegion

set_option maxRecDepth 16384

noncomputable section

namespace Cert.KernelIdeal.Adj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The four buffers behind the five windows, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v0_0) ↦{fullShare} V main_v0_0) ∗ (((c : Thread nD τ).loc main_v0_1) ↦{fullShare} V main_v0_1)
          ∗ (((c : Thread nD τ).loc main_v1) ↦{fullShare} V main_v1) ∗ (((c : Thread nD τ).loc main_v2) ↦{fullShare} V main_v2)) := by
  unfold Pipeline.arrBufs
  exact bigSep_eq_bigSepL_of_eq [main_v0_0, main_v0_1, main_v1, main_v2] (by decide) (by decide) _

variable (V : (c : Dev nD) → (b : Ref sig .tc) → Buf (Elt F) ((c : Thread nD τ).loc b))

/-- The region's hold on its arrays, window by window: the feature matrix twice, at the two halves of the full share. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v0_0) ↦{fullShare.left} G 0) ∗ (((c : Thread nD τ).loc main_v0_0) ↦{fullShare.right} G 1)
          ∗ (((c : Thread nD τ).loc main_v0_1) ↦{fullShare} G 2) ∗ (((c : Thread nD τ).loc main_v1) ↦{fullShare} G 3)
          ∗ (((c : Thread nD τ).loc main_v2) ↦{fullShare} G 4)) := by
  unfold Dat.arrays
  rw [bigSep_W1, (arr_whole1 0).set_eq_univ, (arr_whole1 2).set_eq_univ, (arr_whole1 3).set_eq_univ,
    (arr_whole1 4).set_eq_univ, share1_0, share1_1, share1_2, share1_3, share1_4]

/-- ENTRY: the four buffers at the entry contents make the region's hold on its arrays at the entry contents, the
    feature matrix's full share parted into its halves. -/
theorem arrays1_split (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [arrBufs1_eq, arrays1_eq]
  iintro ⟨Hf, Hc, Hr, Ho⟩
  ihave Hf := (pointsTo_share (PosShare.mem_left_op_right fullShare)).1 $$ Hf
  icases Hf with ⟨Hf₁, Hf₂⟩
  isplitl [Hf₁]; · iexact Hf₁
  isplitl [Hf₂]; · iexact Hf₂
  isplitl [Hc]; · iexact Hc
  isplitl [Hr]; · iexact Hr
  iexact Ho

/-- The input windows' arrays are never written: after any number of points they hold the entry contents. -/
theorem arrAt1_0 (c : Dev nD) (n : ℕ) : (dat1 V c).arrAt 0 n = V c main_v0_0 := (dat1 V c).arrAt_in 0 rfl n
theorem arrAt1_1 (c : Dev nD) (n : ℕ) : (dat1 V c).arrAt 1 n = V c main_v0_0 := (dat1 V c).arrAt_in 1 rfl n
theorem arrAt1_2 (c : Dev nD) (n : ℕ) : (dat1 V c).arrAt 2 n = V c main_v0_1 := (dat1 V c).arrAt_in 2 rfl n
theorem arrAt1_3 (c : Dev nD) (n : ℕ) : (dat1 V c).arrAt 3 n = V c main_v1 := (dat1 V c).arrAt_in 3 rfl n

/-- EXIT: the region's hold on its arrays at the exit contents makes the four buffers whole again, at contents V'
    that agree with the entry contents but for the result buffer, which holds what the write-backs left. -/
theorem arrays1_join (c : Dev nD) (V' : (b : Ref sig .tc) → Buf (Elt F) ((c : Thread nD τ).loc b))
    (h0 : V' main_v0_0 = V c main_v0_0) (h1 : V' main_v0_1 = V c main_v0_1) (h2 : V' main_v1 = V c main_v1)
    (h3 : V' main_v2 = (dat1 V c).arrAt 4 cfg1.N) :
    ((dat1 V c).arrays ((dat1 V c).arrAt · cfg1.N) : sProp 𝕄)
      ⊢ Pipeline.arrBufs (Ix := Unit) (Name := ℕ) (U := UR sig nD τ) (Lvl := ℕ) spec1 c V' := by
  rw [arrBufs1_eq, arrays1_eq, arrAt1_0, arrAt1_1, arrAt1_2, arrAt1_3, h0, h1, h2, h3]
  iintro ⟨Hf₁, Hf₂, Hc, Hr, Ho⟩
  ihave Hf := (pointsTo_share (PosShare.mem_left_op_right fullShare)).2 $$ [Hf₁ Hf₂]
  · isplitl [Hf₁] <;> iassumption
  isplitl [Hf]; · iexact Hf
  isplitl [Hc]; · iexact Hc
  isplitl [Hr]; · iexact Hr
  iexact Ho

end Cert.KernelIdeal.Adj

end
-- ==== Proof.MainRun.lean ====
/-
  The whole program's run: the feature region, the host reshape of the squared-norm column into a row, the adjacency
  region — with every unscoped buffer's final contents NAMED.

  Between two items of @main core c holds each of its six unscoped buffers whole, at contents that are folded through
  @main from the launch memory m:
    * at launch, m;
    * after the first region, m but for the two buffers it writes back, which hold what its eight points wrote
      (the proof data's arrAt … 8);
    * after the reshape, that, with the squared-norm row the reshape of the squared-norm column;
    * after the second region, that but for the result buffer, which holds what its sixty-four points wrote.
  The second region is entered through windows two of which stand on one buffer (the feature matrix): its full share is
  parted at the entry and rejoined at the exit. No item writes an argument.
-/
import proofs.«149396_j55465207660970_1_alg».proof.Proof.FeatRegion
import proofs.«149396_j55465207660970_1_alg».proof.Proof.AdjArrays
import proofs.«149396_j55465207660970_1_alg».proof.Proof.Gen.KernelIdeal.Regions

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main -/

/-- At launch. -/
abbrev W0 : Dev nD → Valuation τ sig (Elt F) := fun c b => m ((c : Dev nD), b)
abbrev V0 : (c : Dev nD) → (b : Ref sig .tc) → Buf (Elt F) ((c : Thread nD τ).loc b) := fun c b => W0 m c b

/-- After the feature region: its four arrays at what the pipeline leaves (the arguments as entered, each result's
    write-backs folded), every other buffer as launched. -/
def W1 (c : Dev nD) : Valuation τ sig (Elt F) :=
  Pipeline.withArrays spec0 c (W0 m c) fun w => (Feat.dat0 (V0 m) c).arrAt w cfg0.N
theorem W1_arr (c : Dev nD) (w : Fin cfg0.W) :
    W1 m c (Proc.devRef .tc (Pipeline.arrRef spec0 w)) = (Feat.dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (Feat.dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the reshape. -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b

/-- After the adjacency region: the result buffer at what its write-backs leave, every other buffer as entered. -/
def W3 (c : Dev nD) : Valuation τ sig (Elt F) :=
  Function.update (W2 m c) (Proc.devRef .tc main_v2) ((Adj.dat1 (V2 m) c).arrAt 4 cfg1.N)
abbrev V3 : (c : Dev nD) → (b : Ref sig .tc) → Buf (Elt F) ((c : Thread nD τ).loc b) := fun c b => W3 m c b
theorem W3_main_v2 (c : Dev nD) : W3 m c (Proc.devRef .tc main_v2) = (Adj.dat1 (V2 m) c).arrAt 4 cfg1.N := by
  unfold W3; exact Function.update_self ..
theorem W3_of_ne (c : Dev nD) (b : Ref sig .tc) (hb : b ≠ main_v2) : W3 m c (Proc.devRef .tc b) = W2 m c (Proc.devRef .tc b) := by
  unfold W3; exact Function.update_of_ne (StableHlo.devRef_ne_of_ne hb) ..

/-- The reshape writes the squared-norm row only. -/
theorem W2_of_ne (c : Dev nD) (b : Ref sig .tc) (hb : b ∉ hostOps1_W) : W2 m c (Proc.devRef .tc b) = W1 m c (Proc.devRef .tc b) :=
  StableHlo.after_of_writes_sub hostOps1 _ hostOps1_writes hb

/-! ## The proof data family and the thread state -/

/-- Both pipelines' proof data, each at its region's entry contents: a literal match. -/
def pdats : (p : Fin 2) → (c : Dev nD) → Dat τ (Elt F) Unit ℕ (UR sig nD τ) ℕ (Pipeline.pin (pcfgs (F := F)) adm p) c
  | ⟨0, _⟩ => fun c => Feat.dat0 (V0 m) c
  | ⟨1, _⟩ => fun c => Adj.dat1 (V2 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- The last thread state without the owes. -/
abbrev Tₙ (c : Dev nD) : sProp 𝕄 := iprop(StableHlo.held (c : Thread nD τ) (Pipeline.ucRefs τ sig) (W3 m c) ∗ ∃ r, prngReg c r)

/-- The reshape as a segment from the contents after the first region. -/
abbrev hseg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- The feature region: entered from every unscoped buffer at the launch contents, left at W1. Its four arrays (all
    distinct) are split out of the unscoped buffers and put back at the exit contents; the generator register passes
    through the invariant; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Feat.body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The two argument buffers are all the second region leaves aside, and it does not change them. -/
theorem rest1_eq (c : Dev nD) :
    (Pipeline.unscopedRest (Ix := Unit) (Name := ℕ) (U := UR sig nD τ) (Lvl := ℕ) spec1 c (V3 m c) : sProp 𝕄)
      = Pipeline.unscopedRest (Ix := Unit) (Name := ℕ) (U := UR sig nD τ) (Lvl := ℕ) spec1 c (V2 m c) := by
  rw [unscopedRest1_eq, unscopedRest1_eq,
    show V3 m c main_arg0 = V2 m c main_arg0 from W3_of_ne m c main_arg0 (by decide),
    show V3 m c main_arg1 = V2 m c main_arg1 from W3_of_ne m c main_arg1 (by decide)]

set_option backward.isDefEq.respectTransparency.types false in
/-- The adjacency region: entered from every unscoped buffer at W2, left at W3. The four buffers behind its five
    windows are split out of the unscoped buffers — the feature matrix's share parted between windows 0 and 1 — and
    put back whole at the exit contents; the rest as for the first region. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Adj.body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsp := Pipeline.unscopedBufs_split₀ (Ix := Unit) (Name := ℕ) (U := UR sig nD τ) (Lvl := ℕ) (nD := nD) (τ := τ) cfgs 1
      winFacts₀1.arr_unscoped c (V2 m c)
    rw [Pipeline.unscopedBufs_held] at hsp
    have hsplit : (StableHlo.held (c : Thread nD τ) (Pipeline.ucRefs τ sig) (W2 m c) : sProp 𝕄)
        ⊢ iprop((Adj.dat1 (V2 m) c).arrays ((Adj.dat1 (V2 m) c).arrAt · 0)
            ∗ Pipeline.unscopedRest (Ix := Unit) (Name := ℕ) (U := UR sig nD τ) (Lvl := ℕ) spec1 c (V2 m c)) := by
      rw [hsp]; exact sep_mono (Adj.arrays1_split (V2 m) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hsp := Pipeline.unscopedBufs_split₀ (Ix := Unit) (Name := ℕ) (U := UR sig nD τ) (Lvl := ℕ) (nD := nD) (τ := τ) cfgs 1
      winFacts₀1.arr_unscoped c (V3 m c)
    rw [Pipeline.unscopedBufs_held] at hsp
    have hjoin := Adj.arrays1_join (V2 m) c (V3 m c)
      (W3_of_ne m c main_v0_0 (by decide)) (W3_of_ne m c main_v0_1 (by decide)) (W3_of_ne m c main_v1 (by decide)) (W3_main_v2 m c)
    have hback : iprop((Adj.dat1 (V2 m) c).arrays ((Adj.dat1 (V2 m) c).arrAt · cfg1.N)
          ∗ Pipeline.unscopedRest (Ix := Unit) (Name := ℕ) (U := UR sig nD τ) (Lvl := ℕ) spec1 c (V2 m c))
        ⊢ (StableHlo.held (c : Thread nD τ) (Pipeline.ucRefs τ sig) (W3 m c) : sProp 𝕄) := by
      rw [hsp, ← rest1_eq]; exact sep_mono hjoin .rfl
    iintro ⟨Ha, HO, HY, Hrest⟩
    imodintro
    isplitl [Ha Hrest HY]
    · isplitl [Ha Hrest]
      · iapply hback
        isplitl [Ha]; · iexact Ha
        iexact Hrest
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m), .host (hseg1 m), .region (reg1 m) ]

theorem main_run (c : Dev nD) : main (F := F) c = Pipeline.Seg.run (segs m) := (main_chain c).trans (by chain_rfl)

set_option backward.isDefEq.respectTransparency.types false in
/-- THE RUN. From any memory m with zero counters every weakly fair execution of @main terminates, nothing faulting,
    and in every final state each unscoped buffer of core c holds W3 m c. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-! ## What the final contents are, buffer by buffer -/

/-- Each argument ends as launched. -/
theorem W3_main_arg0 (c : Dev nD) : W3 m c (Proc.devRef .tc main_arg0) = m ((c : Thread nD τ).loc main_arg0) :=
  (W3_of_ne m c main_arg0 (by decide)).trans <| (W2_of_ne m c main_arg0 (by decide)).trans <|
    (W1_arr m c 0).trans (((Feat.dat0 (V0 m) c).arrAt_in 0 rfl _).trans (Feat.A_eq0 (V0 m) c 0))
theorem W3_main_arg1 (c : Dev nD) : W3 m c (Proc.devRef .tc main_arg1) = m ((c : Thread nD τ).loc main_arg1) :=
  (W3_of_ne m c main_arg1 (by decide)).trans <| (W2_of_ne m c main_arg1 (by decide)).trans <|
    (W1_arr m c 1).trans (((Feat.dat0 (V0 m) c).arrAt_in 1 rfl _).trans (Feat.A_eq0 (V0 m) c 1))

/-- The feature matrix ends at what the first region's write-backs left. -/
theorem W3_main_v0_0 (c : Dev nD) : W3 m c (Proc.devRef .tc main_v0_0) = (Feat.dat0 (V0 m) c).arrAt 2 cfg0.N :=
  (W3_of_ne m c main_v0_0 (by decide)).trans <| (W2_of_ne m c main_v0_0 (by decide)).trans (W1_arr m c 2)

/-- What the second region is handed. -/
theorem V2_main_v0_0 (c : Dev nD) : V2 m c main_v0_0 = (Feat.dat0 (V0 m) c).arrAt 2 cfg0.N :=
  (W2_of_ne m c main_v0_0 (by decide)).trans (W1_arr m c 2)
theorem V2_main_v0_1 (c : Dev nD) : V2 m c main_v0_1 = (Feat.dat0 (V0 m) c).arrAt 3 cfg0.N :=
  (W2_of_ne m c main_v0_1 (by decide)).trans (W1_arr m c 3)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W3_main_arg0 m c),
     (h c _ (mem_uc main_arg1 (by decide))).trans (W3_main_arg1 m c)⟩) (run_main m ρ)

end Cert.KernelIdeal.Run

end
-- ==== Proof.Spec.lean ====
/-
  The two results as plain functions of the two argument matrices x, y : 8192 × 512, over the extended reals.

    d(i,k)   = (x(i,k) − y(i,k))²                         the squared difference
    f(i,k)   = d(i,k) · g(Σₖ d(i,k))                      its rows divided by their sums   (the second result)
    n(i)     = Σₖ f(i,k)²                                 the rows' squared norms
    b(i,j)   = (n(i) + n(j)) − 2 · Σₖ f(i,k)·f(j,k) + [i = j]
    a(i,j)   = b(i,j) · g(Σⱼ b(i,j))                      (the first result)

  where g(s) = 0 at s = 0 and 1/s elsewhere. b is symmetric in (i, j) — addition and multiplication of extended reals
  commute — so the larger of b(i,j) and b(j,i) is b(i,j) itself.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The arguments' shape, and the adjacency's. -/
abbrev SArg : Shape := ⟨2, ![8192, 512]⟩
abbrev SAdj : Shape := ⟨2, ![8192, 8192]⟩

/-- The guarded reciprocal: 0 at 0, the reciprocal elsewhere. -/
def ginv (s : EReal) : EReal := if s = 0 then 0 else Ideal.div 1 s

/-- The squared difference of two entries. -/
def sqd (a b : EReal) : EReal := (a - b) * (a - b)

variable (x y : SArg.Idx → EReal)

/-- The sum of row i of the squared difference. -/
def dsum (i : Fin 8192) : EReal := ∑ k : Fin 512, sqd (x (ix2 i k)) (y (ix2 i k))

/-- The row-normalised squared difference at (i, k): the second result. -/
def feat (i : Fin 8192) (k : Fin 512) : EReal := sqd (x (ix2 i k)) (y (ix2 i k)) * ginv (dsum x y i)

/-- The squared norm of row i of the normalised matrix. -/
def sqn (i : Fin 8192) : EReal := ∑ k : Fin 512, feat x y i k * feat x y i k

/-- The inner product of rows i and j of the normalised matrix. -/
def gram (i j : Fin 8192) : EReal := ∑ k : Fin 512, feat x y i k * feat x y j k

/-- The pairwise squared distance by the expansion ‖u‖² + ‖v‖² − 2⟨u,v⟩, plus the identity. -/
def dist (i j : Fin 8192) : EReal := (sqn x y i + sqn x y j) - 2 * gram x y i j
def distI (i j : Fin 8192) : EReal := dist x y i j + (if i = j then 1 else 0)

/-- The sum of row i of that matrix. -/
def bsum (i : Fin 8192) : EReal := ∑ j : Fin 8192, distI x y i j

/-- The row-normalised adjacency at (i, j): the first result. -/
def adj (i j : Fin 8192) : EReal := distI x y i j * ginv (bsum x y i)

/-- The same distance-plus-identity entry from ANY feature matrix, squared-norm column and squared-norm row (what the
    second kernel is handed): it is distI when the three are the normalised matrix and its rows' squared norms. -/
def distOf (fm : SArg.Idx → EReal) (ncol : (⟨2, ![8192, 1]⟩ : Shape).Idx → EReal) (nrow : (⟨2, ![1, 8192]⟩ : Shape).Idx → EReal)
    (i j : Fin 8192) : EReal :=
  ((ncol (ix2 i 0) + nrow (ix2 0 j)) - 2 * ∑ k : Fin 512, fm (ix2 i k) * fm (ix2 j k)) + (if i = j then 1 else 0)

/-- The two results as arrays. -/
def featArr : SArg.Idx → EReal := fun a => feat x y (a 0) (a 1)
def adjArr : SAdj.Idx → EReal := fun a => adj x y (a 0) (a 1)

theorem gram_comm (i j : Fin 8192) : gram x y i j = gram x y j i :=
  Finset.sum_congr rfl fun _ _ => mul_comm _ _

/-- The distance matrix is symmetric. -/
theorem dist_comm (i j : Fin 8192) : dist x y i j = dist x y j i := by
  unfold dist; rw [gram_comm x y i j, add_comm]

/-- So the larger of an entry and its mirror image is the entry. -/
theorem max_dist_self (i j : Fin 8192) : max (dist x y i j) (dist x y j i) = dist x y i j := by
  rw [dist_comm x y j i, max_self]

/-! The constants as the programs print them. -/

theorem ofBits_one : Ideal.ofBits .f32 0x3F800000#32 = 1 := by
  simp [Ideal.ofBits, Ideal.ieee]
  norm_cast
  norm_num
theorem ofBits_two : Ideal.ofBits .f32 0x40000000#32 = 2 := by
  simp [Ideal.ofBits, Ideal.ieee]
  rw [← EReal.coe_mul]
  norm_num
  norm_cast

/-- The guarded reciprocal as both programs spell it: compare with 0, select 0, else divide 1 by it. -/
theorem select_eq_ginv (s : EReal) : Scalar.select (Ideal.cmp .oeq s 0) (0 : EReal) (Ideal.div 1 s) = ginv s := by
  unfold Scalar.select Ideal.cmp ginv
  by_cases h : s = 0 <;> simp [h]

end Cert.Spec

end
-- ==== Proof.ResultValue.lean ====
/-
  The kernel program's two results at the ideal values, as the specification's functions of the two arguments.

  The feature matrix is what the first region's write-backs left, which is the row-normalised squared difference of the
  arguments. The second region is handed that matrix (twice), its rows' squared norms as a column, and — through the
  host's reshape, which only re-reads the 8192 entries in the same row-major order — the same norms as a row; so the
  strip entries it computes are the specification's distance-plus-identity entries, and its result is the
  specification's adjacency.
-/
import proofs.«149396_j55465207660970_1_alg».proof.Proof.MainRun
import proofs.«149396_j55465207660970_1_alg».proof.Proof.Spec
import Idealize.ShloMosaic.Lib.Pipeline.Value
import Idealize.ShloMosaic.Lib.StableHlo.Run

set_option maxRecDepth 16384

noncomputable section

namespace Cert.KernelIdeal.Result

open Idealize.ShloMosaic Idealize.ShloMosaic.TcCoe Idealize.ShloMosaic.ValueIdx Idealize.ShloMosaic.StableHlo
open Idealize.SL.Sem
open Cert.KernelIdeal Cert.KernelIdeal.Gen Cert.KernelIdeal.Run

variable (m : (ℓ : Loc nD τ sig) → Buf (Elt Ideal) ℓ)

/-- With the three arrays the second region is handed identified — the normalised matrix, its rows' squared norms down
    a column and along a row — the entry it computes is the specification's. -/
theorem distOf_eq_distI (x y : Cert.Spec.SArg.Idx → EReal) (fm : Cert.Spec.SArg.Idx → EReal)
    (ncol : (⟨2, ![8192, 1]⟩ : Shape).Idx → EReal) (nrow : (⟨2, ![1, 8192]⟩ : Shape).Idx → EReal)
    (hfm : ∀ i k, fm (ix2 i k) = Cert.Spec.feat x y i k) (hc : ∀ i, ncol (ix2 i 0) = Cert.Spec.sqn x y i)
    (hr : ∀ j, nrow (ix2 0 j) = Cert.Spec.sqn x y j) (i j : Fin 8192) :
    Cert.Spec.distOf fm ncol nrow i j = Cert.Spec.distI x y i j := by
  unfold Cert.Spec.distOf Cert.Spec.distI Cert.Spec.dist Cert.Spec.gram
  simp only [hfm, hc, hr]

/-- The squared-norm row the second region is handed is the reshape of the squared-norm column. -/
theorem normRow_eq (c : Dev nD) :
    (V2 m c main_v1 : S1x8192.Idx → EReal) = shapeCast S1x8192 (V1 m c main_v0_1 : S8192x1.Idx → EReal) shapeCasts_S8192x1_S1x8192 := by
  show StableHlo.after hostOps1 (W1 m c) (Proc.devRef .tc main_v1) = _
  after_results
  rfl

/-- Entry (0, j) of the row is entry (j, 0) of the column: the two have the same place in row-major order. -/
theorem normRow_apply (c : Dev nD) (j : Fin 8192) :
    (V2 m c main_v1 : S1x8192.Idx → EReal) (ix2 0 j) = (V1 m c main_v0_1 : S8192x1.Idx → EReal) (ix2 j 0) := by
  rw [normRow_eq]
  refine shapeCast_apply _ _ _ _ ?_
  show (S8192x1.rowMajor (ix2 j 0)).val = (S1x8192.rowMajor (ix2 0 j)).val
  rw [Shape.rowMajor_val_two, Shape.rowMajor_val_two]
  show (j : ℕ) * 1 + (0 : ℕ) = (0 : ℕ) * 8192 + (j : ℕ)
  omega

end Cert.KernelIdeal.Result

end
-- ==== Proof.FeatValue.lean ====
/-
  The first kernel region's two result arrays, at the extended reals, as the specification's functions of the
  region's two argument arrays x, y : 8192 × 512.

  At grid point t the body holds rows 1024·t … 1024·t + 1023 of x and of y. Entry (p, q) of what it stores into
  the first result window is d(p,q) · g(Σₖ d(p,k)) with d = (x − y)² on that block, g the guarded reciprocal; entry
  (p, 0) of what it stores into the second is Σₖ of the squares of the first window's row p. A row of the block
  is a row of the array (row 1024·t + p), and the row sums run over the whole row since a block spans all 512
  columns; so each stored block is the restriction of ONE whole-array function to that block. The eight blocks tile
  the array (row r lies in block r / 1024), hence the arrays end holding those functions.
-/
import proofs.«149396_j55465207660970_1_alg».proof.Proof.Spec
import proofs.«149396_j55465207660970_1_alg».proof.Proof.FeatRegion
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.FeatValue

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Feat

/-! ## The three operations of the body that are not entrywise, read at an entry -/

/-- The sum along the lanes of a 1024 × 512 block, at row p, is the sum of that row's 512 entries. -/
theorem rowSum_apply (src : FVec Ideal S1024x512 .f32) (hφ : FKind.Formats .f32)
    (hacc : (0x00000000#32 : BitVec 32) = 0x00000000#32) (p : Fin 1024) :
    multiReduction (F := Ideal) .add [1] S1024 src 0x00000000#32 reduces_S1024x512_S1024 hφ hacc (ix1 p)
      = ∑ k : Fin 512, src (ix2 p k) := by
  refine (Ideal.multiReduction_add_single src 0x00000000#32 reduces_S1024x512_S1024 hφ hacc (ix1 p)).trans ?_
  refine Finset.sum_congr rfl fun k _ => congrArg src ?_
  funext a
  match a with
  | ⟨0, _⟩ => rfl
  | ⟨1, _⟩ => rfl

/-- A 1024-vector viewed as a 1024 × 1 column reads, at (p, u), the vector at p. -/
theorem colCast_apply {α : Type} (x : S1024.Idx → α) (p : Fin 1024) (u : Fin 1) :
    shapeCast S1024x1 x shapeCasts_S1024_S1024x1 (ix2 p u) = x (ix1 p) :=
  shapeCast_apply x _ _ _ (by
    rw [Shape.rowMajor_val_two, Shape.rowMajor_val_one]
    show p.val = p.val * 1 + u.val
    omega)

/-- A 1024 × 1 column repeated along the lanes reads, at (p, q), the column at p. -/
theorem colBroadcast_apply {α : Type} (v : S1024x1.Idx → α) (p : Fin 1024) (q : Fin 512) :
    broadcastTo S1024x512 v broadcasts_S1024x1_S1024x512 (ix2 p q) = v (ix2 p (0 : Fin 1)) := by
  refine broadcastTo_apply v _ (ix2 p q) (ix2 p (0 : Fin 1)) fun ax => ?_
  match ax with
  | ⟨0, _⟩ => rfl
  | ⟨1, _⟩ => rfl

/-! ## The two stored values at an entry of the block -/

/-- Entry (p, q) of the first stored value: the squared difference there times the guarded reciprocal of the
    squared differences' sum over row p. -/
theorem pay1_apply (v0 v1 : Vec Ideal S1024x512 .f32) (p : Fin 1024) (q : Fin 512) :
    k0_pay1 v0 v1 (ix2 p q)
      = Spec.sqd (v0 (ix2 p q)) (v1 (ix2 p q)) * Spec.ginv (∑ k : Fin 512, Spec.sqd (v0 (ix2 p k)) (v1 (ix2 p k))) := by
  unfold k0_pay1
  dsimp only
  simp only [mulf_apply, subf_apply, colBroadcast_apply, select_apply, cmpf_apply, divf_apply, broadcast_apply, colCast_apply]
  rw [rowSum_apply]
  simp only [mulf_apply, subf_apply]
  rw [Ideal.cmpf_def]
  show _ * Scalar.select (Ideal.cmp .oeq _ (Ideal.ofBits .f32 0x00000000#32)) (Ideal.ofBits .f32 0x00000000#32)
    (Ideal.div (Ideal.ofBits .f32 0x3F800000#32) _) = _
  rw [Ideal.ofBits_zero_f32, Spec.ofBits_one, Spec.select_eq_ginv]
  rfl

/-- Entry (p, 0) of the second stored value: the sum over row p of the squares of the first. -/
theorem pay2_apply (v0 v1 : Vec Ideal S1024x512 .f32) (p : Fin 1024) (u : Fin 1) :
    k0_pay2 v0 v1 (ix2 p u) = ∑ k : Fin 512, k0_pay1 v0 v1 (ix2 p k) * k0_pay1 v0 v1 (ix2 p k) := by
  unfold k0_pay2
  dsimp only
  rw [colCast_apply, rowSum_apply]
  rfl

/-! ## A block whose rows are rows of the arrays stores the restriction of the whole-array functions -/

/-- If the two loaded blocks are rows 1024·t … of x and y, entry (p, q) of the first stored value is the normalised
    squared difference at (1024·t + p, q). -/
theorem pay1_of_rows (v0 v1 : Vec Ideal S1024x512 .f32) (x y : Spec.SArg.Idx → EReal) (p : Fin 1024) (r : Fin 8192)
    (h0 : ∀ k : Fin 512, v0 (ix2 p k) = x (ix2 r k)) (h1 : ∀ k : Fin 512, v1 (ix2 p k) = y (ix2 r k)) (q : Fin 512) :
    k0_pay1 v0 v1 (ix2 p q) = Spec.feat x y r q := by
  rw [pay1_apply]
  unfold Spec.feat Spec.dsum
  rw [h0 q, h1 q]
  simp only [h0, h1]

/-- … and entry (p, 0) of the second is the squared norm of row 1024·t + p. -/
theorem pay2_of_rows (v0 v1 : Vec Ideal S1024x512 .f32) (x y : Spec.SArg.Idx → EReal) (p : Fin 1024) (r : Fin 8192)
    (h0 : ∀ k : Fin 512, v0 (ix2 p k) = x (ix2 r k)) (h1 : ∀ k : Fin 512, v1 (ix2 p k) = y (ix2 r k)) (u : Fin 1) :
    k0_pay2 v0 v1 (ix2 p u) = Spec.sqn x y r := by
  rw [pay2_apply]
  unfold Spec.sqn
  exact Finset.sum_congr rfl fun k _ => by rw [pay1_of_rows v0 v1 x y p r h0 h1 k]

/-! ## The blocks of the four windows -/

/-- The offsets of the whole-buffer rectangle are zero on both axes. -/
theorem zero_offsets : (![0, 0] : Fin 2 → Nat) = fun _ => 0 := funext fun a => by fin_cases a <;> rfl

/-- The printed index maps over the grid: every window's block at point t is block (t, 0). -/
theorem block_index_eq : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- The first argument's block at point t is rows 1024·t … of the first argument. -/
theorem iblk0_0_apply (c : Dev nD) (t : Fin cfg0.N) (j : S1024x512.Idx) (i : S8192x512.Idx)
    (h0 : (i 0).val = 1024 * t.val + (j 0).val) (h1 : (i 1).val = (j 1).val) :
    (iblk0 (F := Ideal) V c 0 t : Vec Ideal S1024x512 .f32) j = (V c main_arg0 : S8192x512.Idx → EReal) i := by
  obtain ⟨e0, e1, -⟩ := block_index_eq t
  unfold iblk0
  rw [View.read_apply]
  show V c main_arg0 _ = V c main_arg0 _
  congr 1
  funext a
  apply Fin.ext
  match a with
  | ⟨0, _⟩ => show win0_0.index t 0 * 1024 + 1 * (j 0).val = (i 0).val; rw [e0, h0]; omega
  | ⟨1, _⟩ => show win0_0.index t 1 * 512 + 1 * (j 1).val = (i 1).val; rw [e1, h1]; omega

/-- The second argument's block at point t is rows 1024·t … of the second argument. -/
theorem iblk0_1_apply (c : Dev nD) (t : Fin cfg0.N) (j : S1024x512.Idx) (i : S8192x512.Idx)
    (h0 : (i 0).val = 1024 * t.val + (j 0).val) (h1 : (i 1).val = (j 1).val) :
    (iblk0 (F := Ideal) V c 1 t : Vec Ideal S1024x512 .f32) j = (V c main_arg1 : S8192x512.Idx → EReal) i := by
  obtain ⟨-, -, e0, e1, -⟩ := block_index_eq t
  unfold iblk0
  rw [View.read_apply]
  show V c main_arg1 _ = V c main_arg1 _
  congr 1
  funext a
  apply Fin.ext
  match a with
  | ⟨0, _⟩ => show win0_1.index t 0 * 1024 + 1 * (j 0).val = (i 0).val; rw [e0, h0]; omega
  | ⟨1, _⟩ => show win0_1.index t 1 * 512 + 1 * (j 1).val = (i 1).val; rw [e1, h1]; omega

/-! ## What each point writes back -/

/-- Over blocks that are rows 1024·t … of x and y, the first stored value at an entry j of the block is the
    normalised squared difference at the array entry i that j sits at. -/
theorem feat_block (v0 v1 : Vec Ideal S1024x512 .f32) (x y : Spec.SArg.Idx → EReal) (t : Nat)
    (h0 : ∀ (j : S1024x512.Idx) (i : S8192x512.Idx), (i 0).val = 1024 * t + (j 0).val → (i 1).val = (j 1).val → v0 j = x i)
    (h1 : ∀ (j : S1024x512.Idx) (i : S8192x512.Idx), (i 0).val = 1024 * t + (j 0).val → (i 1).val = (j 1).val → v1 j = y i)
    (j : S1024x512.Idx) (i : S8192x512.Idx) (hi0 : (i 0).val = 1024 * t + (j 0).val) (hi1 : (i 1).val = (j 1).val) :
    k0_pay1 v0 v1 j = Spec.featArr x y i := by
  obtain ⟨p, q, rfl⟩ : ∃ (p : Fin 1024) (q : Fin 512), j = ix2 p q := ⟨j 0, j 1, eq_ix2 j⟩
  obtain ⟨r, s, rfl⟩ : ∃ (r : Fin 8192) (s : Fin 512), i = ix2 r s := ⟨i 0, i 1, eq_ix2 i⟩
  obtain rfl : s = q := Fin.ext hi1
  show _ = Spec.feat x y r s
  exact pay1_of_rows v0 v1 x y p r (fun k => h0 (ix2 p k) (ix2 r k) hi0 rfl) (fun k => h1 (ix2 p k) (ix2 r k) hi0 rfl) s

/-- … and the second stored value at an entry j of the 1024 × 1 block is the squared norm of the row that j sits at. -/
theorem norm_block (v0 v1 : Vec Ideal S1024x512 .f32) (x y : Spec.SArg.Idx → EReal) (t : Nat)
    (h0 : ∀ (j : S1024x512.Idx) (i : S8192x512.Idx), (i 0).val = 1024 * t + (j 0).val → (i 1).val = (j 1).val → v0 j = x i)
    (h1 : ∀ (j : S1024x512.Idx) (i : S8192x512.Idx), (i 0).val = 1024 * t + (j 0).val → (i 1).val = (j 1).val → v1 j = y i)
    (j : S1024x1.Idx) (r : Fin 8192) (hr : r.val = 1024 * t + (j 0).val) :
    k0_pay2 v0 v1 j = Spec.sqn x y r := by
  obtain ⟨p, u, rfl⟩ : ∃ (p : Fin 1024) (u : Fin 1), j = ix2 p u := ⟨j 0, j 1, eq_ix2 j⟩
  exact pay2_of_rows v0 v1 x y p r (fun k => h0 (ix2 p k) (ix2 r k) hr rfl) (fun k => h1 (ix2 p k) (ix2 r k) hr rfl) u

/-- What point t writes back through the first result window is block t of the normalised squared difference of the
    two arguments as the region finds them. -/
theorem feat_flushed (c : Dev nD) (t : Fin cfg0.N) :
    (dat0 (F := Ideal) V c).flushed 2 t
      = ((cfg0.win 2).blk t).view.read (Elt Ideal) (Spec.featArr (V c main_arg0) (V c main_arg1)) := by
  show (cfg0.win 2).cut (grid0.coords t) ((dat0 (F := Ideal) V c).after 2 t) = _
  rw [after0_2]
  unfold featOut
  rw [View.canon_unit_zero zero_offsets]
  simp only [View.ld_unit_zero (S := S1024x512) zero_offsets]
  obtain ⟨-, -, -, -, e0, e1, -⟩ := block_index_eq t
  funext j
  show k0_pay1 (iblk0 (F := Ideal) V c 0 t) (iblk0 (F := Ideal) V c 1 t) j
    = Spec.featArr (V c main_arg0) (V c main_arg1) (((cfg0.win 2).blk t).view.emb j)
  refine feat_block _ _ _ _ t.val (fun j i a b => iblk0_0_apply V c t j i a b) (fun j i a b => iblk0_1_apply V c t j i a b) j _ ?_ ?_
  · show win0_2.index t 0 * 1024 + 1 * (j 0).val = 1024 * t.val + (j 0).val
    rw [e0]; omega
  · show win0_2.index t 1 * 512 + 1 * (j 1).val = (j 1).val
    rw [e1]; omega

/-- What point t writes back through the second result window is block t of the column of squared norms. -/
theorem norm_flushed (c : Dev nD) (t : Fin cfg0.N) :
    (dat0 (F := Ideal) V c).flushed 3 t
      = ((cfg0.win 3).blk t).view.read (Elt Ideal)
          (fun a : S8192x1.Idx => Spec.sqn (V c main_arg0) (V c main_arg1) (a 0)) := by
  show (cfg0.win 3).cut (grid0.coords t) ((dat0 (F := Ideal) V c).after 3 t) = _
  rw [after0_3]
  unfold normOut
  rw [View.canon_unit_zero zero_offsets]
  simp only [View.ld_unit_zero (S := S1024x512) zero_offsets]
  obtain ⟨-, -, -, -, -, -, e0, e1⟩ := block_index_eq t
  funext j
  show k0_pay2 (iblk0 (F := Ideal) V c 0 t) (iblk0 (F := Ideal) V c 1 t) j
    = Spec.sqn (V c main_arg0) (V c main_arg1) ((((cfg0.win 3).blk t).view.emb j) 0)
  refine norm_block _ _ _ _ t.val (fun j i a b => iblk0_0_apply V c t j i a b) (fun j i a b => iblk0_1_apply V c t j i a b) j _ ?_
  show win0_3.index t 0 * 1024 + 1 * (j 0).val = 1024 * t.val + (j 0).val
  rw [e0]; omega

/-! ## The blocks tile the arrays -/

/-- An entry of the first result array is in point t's block iff each coordinate is in the block's range. -/
theorem mem_featBlk (t : Fin cfg0.N) (i : S8192x512.Idx) :
    i ∈ ((cfg0.win 2).blk t).view.set ↔ ∀ a : Fin 2, win0_2.index t a * S1024x512.size a ≤ (i a).val
      ∧ (i a).val < win0_2.index t a * S1024x512.size a + S1024x512.size a := by
  show i ∈ ((View.whole main_v0_0).slice (win0_2.rect t)).set ↔ _
  rw [View.set_slice_whole, Rect.mem_set_unit]
  exact Iff.rfl

/-- The same for the second result array. -/
theorem mem_normBlk (t : Fin cfg0.N) (i : S8192x1.Idx) :
    i ∈ ((cfg0.win 3).blk t).view.set ↔ ∀ a : Fin 2, win0_3.index t a * S1024x1.size a ≤ (i a).val
      ∧ (i a).val < win0_3.index t a * S1024x1.size a + S1024x1.size a := by
  show i ∈ ((View.whole main_v0_1).slice (win0_3.rect t)).set ↔ _
  rw [View.set_slice_whole, Rect.mem_set_unit]
  exact Iff.rfl

/-- Row r of the first result array lies in the block of point r / 1024. -/
theorem feat_cover (i : S8192x512.Idx) :
    ∃ t : Fin cfg0.N, (cfg0.win 2).flush t = true ∧ i ∈ ((cfg0.win 2).blk t).view.set := by
  have hi0 : (i 0).val < 8192 := (i 0).isLt
  have hi1 : (i 1).val < 512 := (i 1).isLt
  have hN : cfg0.N = 8 := N_0
  obtain ⟨t, ht⟩ : ∃ t : Fin cfg0.N, t.val = (i 0).val / 1024 := ⟨⟨(i 0).val / 1024, by rw [hN]; omega⟩, rfl⟩
  obtain ⟨-, -, -, -, e0, e1, -⟩ := block_index_eq t
  refine ⟨t, flush0_2 t, ?_⟩
  rw [mem_featBlk]
  intro a
  match a with
  | ⟨0, _⟩ =>
    show win0_2.index t 0 * 1024 ≤ (i 0).val ∧ (i 0).val < win0_2.index t 0 * 1024 + 1024
    rw [e0, ht]; omega
  | ⟨1, _⟩ =>
    show win0_2.index t 1 * 512 ≤ (i 1).val ∧ (i 1).val < win0_2.index t 1 * 512 + 512
    rw [e1]; omega

/-- Row r of the second result array lies in the block of point r / 1024. -/
theorem norm_cover (i : S8192x1.Idx) :
    ∃ t : Fin cfg0.N, (cfg0.win 3).flush t = true ∧ i ∈ ((cfg0.win 3).blk t).view.set := by
  have hi0 : (i 0).val < 8192 := (i 0).isLt
  have hi1 : (i 1).val < 1 := (i 1).isLt
  have hN : cfg0.N = 8 := N_0
  obtain ⟨t, ht⟩ : ∃ t : Fin cfg0.N, t.val = (i 0).val / 1024 := ⟨⟨(i 0).val / 1024, by rw [hN]; omega⟩, rfl⟩
  obtain ⟨-, -, -, -, -, -, e0, e1⟩ := block_index_eq t
  refine ⟨t, flush0_3 t, ?_⟩
  rw [mem_normBlk]
  intro a
  match a with
  | ⟨0, _⟩ =>
    show win0_3.index t 0 * 1024 ≤ (i 0).val ∧ (i 0).val < win0_3.index t 0 * 1024 + 1024
    rw [e0, ht]; omega
  | ⟨1, _⟩ =>
    show win0_3.index t 1 * 1 ≤ (i 1).val ∧ (i 1).val < win0_3.index t 1 * 1 + 1
    rw [e1]; omega

/-! ## The two result arrays after the region -/

/-- The first result array ends holding the row-normalised squared difference of the two arguments. -/
theorem feat_final (c : Dev nD) :
    (dat0 (F := Ideal) V c).arrAt 2 cfg0.N = Spec.featArr (V c main_arg0) (V c main_arg1) :=
  (dat0 (F := Ideal) V c).arrAt_eq_of_cover 2 (Spec.featArr (V c main_arg0) (V c main_arg1))
    (fun t _ => feat_flushed V c t) feat_cover

/-- The second ends holding, in row r, the squared norm of row r of the first. -/
theorem norm_final (c : Dev nD) :
    (dat0 (F := Ideal) V c).arrAt 3 cfg0.N = fun a => Spec.sqn (V c main_arg0) (V c main_arg1) (a 0) :=
  (dat0 (F := Ideal) V c).arrAt_eq_of_cover 3 (fun a : S8192x1.Idx => Spec.sqn (V c main_arg0) (V c main_arg1) (a 0))
    (fun t _ => norm_flushed V c t) norm_cover

end Cert.KernelIdeal.FeatValue

end
-- ==== Proof.AdjValue.lean ====
/-
  The second kernel region's result array, at the ideal instance, as a function of the three arrays the region is
  handed: the feature matrix fm (8192 × 512), the squared-norm column ncol (8192 × 1) and the squared-norm row nrow
  (1 × 8192).

  At grid point t the body holds rows 128·t … 128·t + 127 of fm and of ncol, and all of fm and nrow. For a local row p
  (global row i = 128·t + p) and a column j it forms

      b(p, j) = ((ncol(i, 0) + nrow(0, j)) − 2 · Σₖ fm(i, k) · fm(j, k)) + [128·t + p = j]

  — the inner products by one matrix product of the row block with the transposed whole matrix, the identity by
  comparing a row counter with a column counter — and stores b(p, j) · g(Σⱼ b(p, j)), g the guarded reciprocal.
  With i for 128·t + p this is distOf fm ncol nrow i j · g(Σⱼ distOf fm ncol nrow i j): the same function of (i, j)
  at every grid point, so the strips the 64 points write back tile ONE whole-array function, and the result array
  ends holding it.

  Three steps: the payload read at an index, over variables of the blocks' literal vector types; the strip a symbolic
  point writes back as the restriction of the whole-array function to that point's block; the cover of the array by
  the 64 strips.
-/
import proofs.«149396_j55465207660970_1_alg».proof.Proof.Spec
import proofs.«149396_j55465207660970_1_alg».proof.Proof.AdjRegion
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.AdjValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Adj
open scoped BigOperators

/-! ## The non-pointwise operations of the body, each read at an index -/

section Layout
variable {α : Type}

/-- A column [a, 1] broadcast along the rows to [a, b] reads, at (p, c), the column's entry p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to the column [a, 1] reads, at (p, 0), the vector's entry p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Layout

/-! ## The matrix product into a zero accumulator, read at an index -/

theorem lhs_gram_0 (i : S128x8192.Idx) (q : dot_S128x512_S512x8192_S128x8192_1_0_0_1_n_n.contr.Idx) :
    (dot_S128x512_S512x8192_S128x8192_1_0_0_1_n_n.lhsIdx i q 0).val = (i 0).val := by
  unfold DotDims.lhsIdx
  rw [dif_neg (show ¬(0 : Fin S128x512.rank) ∈ dot_S128x512_S512x8192_S128x8192_1_0_0_1_n_n.lhsBatch by decide), dif_pos (show (0 : Fin S128x512.rank) ∈ dot_S128x512_S512x8192_S128x8192_1_0_0_1_n_n.lhsNonContracting by decide)]
  rfl
theorem lhs_gram_1 (i : S128x8192.Idx) (q : dot_S128x512_S512x8192_S128x8192_1_0_0_1_n_n.contr.Idx) :
    (dot_S128x512_S512x8192_S128x8192_1_0_0_1_n_n.lhsIdx i q 1).val = (q ⟨0, by decide⟩).val :=
  dot_S128x512_S512x8192_S128x8192_1_0_0_1_n_n.lhsIdx_val_of_single rfl i q
theorem rhs_gram_0 (i : S128x8192.Idx) (q : dot_S128x512_S512x8192_S128x8192_1_0_0_1_n_n.contr.Idx) :
    (dot_S128x512_S512x8192_S128x8192_1_0_0_1_n_n.rhsIdx i q 0).val = (q ⟨0, by decide⟩).val :=
  dot_S128x512_S512x8192_S128x8192_1_0_0_1_n_n.rhsIdx_val_of_single rfl i q
theorem rhs_gram_1 (i : S128x8192.Idx) (q : dot_S128x512_S512x8192_S128x8192_1_0_0_1_n_n.contr.Idx) :
    (dot_S128x512_S512x8192_S128x8192_1_0_0_1_n_n.rhsIdx i q 1).val = (i 1).val := by
  unfold DotDims.rhsIdx
  rw [dif_neg (show ¬(1 : Fin S512x8192.rank) ∈ dot_S128x512_S512x8192_S128x8192_1_0_0_1_n_n.rhsBatch by decide), dif_pos (show (1 : Fin S512x8192.rank) ∈ dot_S128x512_S512x8192_S128x8192_1_0_0_1_n_n.rhsNonContracting by decide)]
  rfl

/-- The product of a 128 × 512 block with a 512 × 8192 matrix, accumulated into zero, at (p, q): the sum over the
    512 contracted coordinates of the block's row p against the matrix's column q. -/
theorem gram_apply (l : FVec Ideal S128x512 .f32) (r : FVec Ideal S512x8192 .f32) (p : Fin 128) (q : Fin 8192) :
    matmul dot_S128x512_S512x8192_S128x8192_1_0_0_1_n_n none l r (constant (F := Ideal) S128x8192 .f32 0x00000000#32) (ix2 p q)
      = ∑ k : Fin 512, l (ix2 p k) * r (ix2 k q) := by
  show FloatOps.matmul dot_S128x512_S512x8192_S128x8192_1_0_0_1_n_n none l r (constant (F := Ideal) S128x8192 .f32 0x00000000#32) (ix2 p q) = _
  rw [Ideal.matmul_constant_zero_apply, ← Equiv.sum_comp (contrEquiv1 dot_S128x512_S512x8192_S128x8192_1_0_0_1_n_n 512 rfl rfl).symm]
  refine Finset.sum_congr rfl fun k _ => ?_
  have hk := contrEquiv1_symm_val dot_S128x512_S512x8192_S128x8192_1_0_0_1_n_n 512 rfl rfl k
  have el : dot_S128x512_S512x8192_S128x8192_1_0_0_1_n_n.lhsIdx (ix2 p q) ((contrEquiv1 dot_S128x512_S512x8192_S128x8192_1_0_0_1_n_n 512 rfl rfl).symm k) = ix2 p k := funext fun a => Fin.ext (by
    match a with
    | ⟨0, _⟩ => exact lhs_gram_0 _ _
    | ⟨1, _⟩ => exact (lhs_gram_1 _ _).trans hk)
  have er : dot_S128x512_S512x8192_S128x8192_1_0_0_1_n_n.rhsIdx (ix2 p q) ((contrEquiv1 dot_S128x512_S512x8192_S128x8192_1_0_0_1_n_n 512 rfl rfl).symm k) = ix2 k q := funext fun a => Fin.ext (by
    match a with
    | ⟨0, _⟩ => exact (rhs_gram_0 _ _).trans hk
    | ⟨1, _⟩ => exact rhs_gram_1 _ _)
  rw [el, er]

/-! ## The sum along the lanes, read at a row -/

/-- The sum of a 128 × 8192 strip along its second axis, at row p: the sum over the 8192 columns. -/
theorem laneSum_apply (v : FVec Ideal S128x8192 .f32) (hacc : (0x00000000#32 : BitVec 32) = 0x00000000#32) (p : Fin 128) :
    multiReduction (F := Ideal) .add [1] S128 v 0x00000000#32 reduces_S128x8192_S128 (.inl rfl) hacc (ix1 p)
      = ∑ j : Fin 8192, v (ix2 p j) := by
  refine (Ideal.multiReduction_add_single v 0x00000000#32 reduces_S128x8192_S128 (.inl rfl) hacc (ix1 p)).trans ?_
  refine Finset.sum_congr rfl fun j _ => ?_
  exact congrArg v (funext fun a => Fin.ext (by match a with | ⟨0, _⟩ => rfl | ⟨1, _⟩ => rfl))

/-! ## The identity: a row counter compared with a column counter -/

/-- At grid coordinate t < 64, local row p < 128 and column q < 8192 the 32-bit words t·128 + p and q are equal exactly
    when the numbers are (nothing wraps: t·128 + p < 8192), so the select on their comparison is the `if` on the numbers. -/
theorem select_diag {α : Type} (t : ℕ) (ht : t < 64) (p : Fin 128) (q : Fin 8192) (A B : α) :
    Scalar.select (IntOp.cmpi .eq (IntOp.addi (Scalar.muli (BitVec.ofNat 32 t) 128#32) (BitVec.ofNat 32 p.val)) (BitVec.ofNat 32 q.val)) A B
      = if t * 128 + p.val = q.val then A else B := by
  have hp := p.isLt
  have hq := q.isLt
  have hw : IntOp.addi (Scalar.muli (BitVec.ofNat 32 t) 128#32) (BitVec.ofNat 32 p.val) = BitVec.ofNat 32 (t * 128 + p.val) := by
    apply BitVec.eq_of_toNat_eq
    simp only [IntOp.addi, Scalar.muli, IntOp.muli, BitVec.toNat_add, BitVec.toNat_mul, BitVec.toNat_ofNat]
    omega
  rw [hw]
  show (if BitVec.ofBool (BitVec.ofNat 32 (t * 128 + p.val) == BitVec.ofNat 32 q.val) = 1#1 then A else B) = _
  by_cases h : t * 128 + p.val = q.val
  · rw [if_pos h, h, beq_self_eq_true]
    exact if_pos rfl
  · rw [if_neg h]
    have hne : BitVec.ofNat 32 (t * 128 + p.val) ≠ BitVec.ofNat 32 q.val := by
      intro e
      have := congrArg BitVec.toNat e
      simp only [BitVec.toNat_ofNat] at this
      omega
    rw [beq_eq_false_iff_ne.mpr hne]
    exact if_neg (by decide)

/-! ## The payload read at an index -/

/-- The strip before its rows are divided by their sums, as the body spells it: the two squared-norm broadcasts
    added, twice the product of the row block with the transposed matrix taken off, the identity added. -/
def preNorm (i : grid1.Coords) (v0 : Vec Ideal S128x512 .f32) (v2 : Vec Ideal S8192x512 .f32) (v6 : Vec Ideal S128x1 .f32)
    (v8 : Vec Ideal S1x8192 .f32) : FVec Ideal S128x8192 .f32 :=
  addf
    (subf
      (addf
        (broadcastTo S128x8192 (shapeCast S128x1 v6 shapeCasts_S128x1_S128x1 : FVec Ideal S128x1 .f32) broadcasts_S128x1_S128x8192 : FVec Ideal S128x8192 .f32)
        (broadcastTo S128x8192 (shapeCast S1x8192 v8 shapeCasts_S1x8192_S1x8192 : FVec Ideal S1x8192 .f32) broadcasts_S1x8192_S128x8192 : FVec Ideal S128x8192 .f32))
      (mulf (broadcast S128x8192 (Scalar.ofBits (F := Ideal) .f32 0x40000000#32))
        (matmul dot_S128x512_S512x8192_S128x8192_1_0_0_1_n_n none
          (shapeCast S128x512 v0 shapeCasts_S128x512_S128x512 : FVec Ideal S128x512 .f32)
          (transpose S512x8192 [1, 0] (shapeCast S8192x512 v2 shapeCasts_S8192x512_S8192x512 : FVec Ideal S8192x512 .f32)
            transposes_S8192x512_p1_0_S512x8192 : FVec Ideal S512x8192 .f32)
          (constant (F := Ideal) S128x8192 .f32 0x00000000#32))))
    (select
      (cmpi .eq
        (addi (broadcast S128x8192 (Scalar.muli (BitVec.ofNat 32 (i 0).val) 128#32)) (iota .tc S128x8192 32 [0] iota_S128x8192_d0_w32))
        (iota .tc S128x8192 32 [1] iota_S128x8192_d1_w32))
      (broadcast S128x8192 (Scalar.ofBits (F := Ideal) .f32 0x3F800000#32))
      (broadcast S128x8192 (Scalar.ofBits (F := Ideal) .f32 0x00000000#32)))

/-- The payload is that strip times the broadcast column of guarded reciprocals of its row sums. -/
theorem pay_eq_preNorm (i : grid1.Coords) (v0 : Vec Ideal S128x512 .f32) (v2 : Vec Ideal S8192x512 .f32) (v6 : Vec Ideal S128x1 .f32)
    (v8 : Vec Ideal S1x8192 .f32) :
    k1_pay1 (F := Ideal) i v0 v2 v6 v8
      = mulf (preNorm i v0 v2 v6 v8)
          (broadcastTo S128x8192
            (select
              (cmpf .oeq
                (shapeCast S128x1 (multiReduction (F := Ideal) .add [1] S128 (preNorm i v0 v2 v6 v8) 0x00000000#32 reduces_S128x8192_S128 (.inl rfl) rfl) shapeCasts_S128_S128x1)
                (broadcast S128x1 (Scalar.ofBits (F := Ideal) .f32 0x00000000#32)))
              (broadcast S128x1 (Scalar.ofBits (F := Ideal) .f32 0x00000000#32))
              (divf (broadcast S128x1 (Scalar.ofBits (F := Ideal) .f32 0x3F800000#32))
                (shapeCast S128x1 (multiReduction (F := Ideal) .add [1] S128 (preNorm i v0 v2 v6 v8) 0x00000000#32 reduces_S128x8192_S128 (.inl rfl) rfl) shapeCasts_S128_S128x1)))
            broadcasts_S128x1_S128x8192) := rfl

/-- An integer comparison at an index compares the elements, and an integer sum at an index adds them. -/
theorem cmpi_apply {s : Shape} {w : ℕ} (pr : CmpIPredicate) (x y : IVec s w) (i : s.Idx) : cmpi pr x y i = IntOp.cmpi pr (x i) (y i) := rfl
theorem addi_apply {s : Shape} {w : ℕ} (x y : IVec s w) (i : s.Idx) : addi x y i = IntOp.addi (x i) (y i) := rfl

/-- Entry (p, j) of the strip before normalisation, from the four blocks the body loads at grid coordinates i. -/
def stripEntry (i : grid1.Coords) (v0 : Vec Ideal S128x512 .f32) (v2 : Vec Ideal S8192x512 .f32) (v6 : Vec Ideal S128x1 .f32)
    (v8 : Vec Ideal S1x8192 .f32) (p : Fin 128) (j : Fin 8192) : EReal :=
  ((v6 (ix2 p (0 : Fin 1)) + v8 (ix2 (0 : Fin 1) j)) - 2 * ∑ k : Fin 512, v0 (ix2 p k) * v2 (ix2 j k))
    + (if (i 0).val * 128 + p.val = j.val then 1 else 0)

theorem preNorm_apply (i : grid1.Coords) (v0 : Vec Ideal S128x512 .f32) (v2 : Vec Ideal S8192x512 .f32) (v6 : Vec Ideal S128x1 .f32)
    (v8 : Vec Ideal S1x8192 .f32) (p : Fin 128) (q : Fin 8192) :
    preNorm i v0 v2 v6 v8 (ix2 p q) = stripEntry i v0 v2 v6 v8 p q := by
  have hi : (i 0).val < 64 := (i 0).isLt
  unfold preNorm stripEntry
  simp only [shapeCast_self]
  rw [addf_apply, subf_apply, addf_apply, mulf_apply, select_apply, cmpi_apply, addi_apply, broadcast_apply, broadcast_apply,
    broadcast_apply, broadcast_apply, broadcastTo_a1_ab_apply, broadcastTo_1b_ab_apply, gram_apply,
    iota_single_apply, iota_single_apply]
  rw [show (FloatOps.ofBits (F := Ideal) .f32 0x40000000#32 : EReal) = 2 from Spec.ofBits_two,
    show (FloatOps.ofBits (F := Ideal) .f32 0x3F800000#32 : EReal) = 1 from Spec.ofBits_one,
    show (FloatOps.ofBits (F := Ideal) .f32 0x00000000#32 : EReal) = 0 from Ideal.ofBits_zero_f32]
  have hT : ∀ k : Fin 512, transpose S512x8192 [1, 0] v2 transposes_S8192x512_p1_0_S512x8192 (ix2 k q) = v2 (ix2 q k) :=
    fun k => transpose_ix2_apply v2 transposes_S8192x512_p1_0_S512x8192 k q
  simp only [hT]
  exact congrArg (HAdd.hAdd _) (select_diag (i 0).val hi p q 1 0)

/-- THE PAYLOAD AT AN INDEX: entry (p, q) of what the body stores is the strip's entry times the guarded reciprocal of
    the strip's row sum. -/
theorem pay_apply (i : grid1.Coords) (v0 : Vec Ideal S128x512 .f32) (v2 : Vec Ideal S8192x512 .f32) (v6 : Vec Ideal S128x1 .f32)
    (v8 : Vec Ideal S1x8192 .f32) (p : Fin 128) (q : Fin 8192) :
    k1_pay1 (F := Ideal) i v0 v2 v6 v8 (ix2 p q)
      = stripEntry i v0 v2 v6 v8 p q * Spec.ginv (∑ j : Fin 8192, stripEntry i v0 v2 v6 v8 p j) := by
  rw [pay_eq_preNorm]
  have hB : ∀ (p : Fin 128) (q : Fin 8192), preNorm i v0 v2 v6 v8 (ix2 p q) = stripEntry i v0 v2 v6 v8 p q :=
    fun p q => preNorm_apply i v0 v2 v6 v8 p q
  generalize preNorm i v0 v2 v6 v8 = b at hB ⊢
  rw [mulf_apply, broadcastTo_a1_ab_apply, select_apply, cmpf_apply, divf_apply, broadcast_apply, broadcast_apply,
    shapeCast_a_a1_apply, laneSum_apply]
  rw [show (FloatOps.ofBits (F := Ideal) .f32 0x3F800000#32 : EReal) = 1 from Spec.ofBits_one,
    show (FloatOps.ofBits (F := Ideal) .f32 0x00000000#32 : EReal) = 0 from Ideal.ofBits_zero_f32,
    Ideal.cmpf_def, Spec.select_eq_ginv]
  simp only [hB]

/-! ## What a grid point writes back -/

variable (V : (c : Dev nD) → (b : Ref sig .tc) → Buf (Elt Ideal) ((c : Thread nD τ).loc b))

/-- The zero offsets of the staging buffers' whole rectangles. -/
theorem zero_off : (![0, 0] : Fin 2 → Nat) = fun _ => 0 := funext fun a => by fin_cases a <;> rfl

/-- The whole result as ONE function of the three arrays the region is handed: the distance-plus-identity entry
    times the guarded reciprocal of its row's sum. -/
def adjOf (c : Dev nD) : S8192x8192.Idx → EReal := fun a =>
  Spec.distOf (V c main_v0_0) (V c main_v0_1) (V c main_v1) (a 0) (a 1)
    * Spec.ginv (∑ j : Fin 8192, Spec.distOf (V c main_v0_0) (V c main_v0_1) (V c main_v1) (a 0) j)

/-- The printed index maps, decided once over the 64 grid points: the row-block windows (0, 2 and the result's) sit at
    block row t, the two whole-array windows at block (0, 0), and the grid coordinate of point t is t. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ (grid1.coords t 0).val = t.val :=
  (by decide +kernel : ∀ t : Fin grid1.N, _)

/-- A global row from a grid point and a local row. -/
def rowOf (t : Fin cfg1.N) (p : Fin 128) : Fin 8192 :=
  ⟨t.val * 128 + p.val, by have ht : t.val < 64 := N_1 ▸ t.isLt; have := p.isLt; omega⟩

/-- Window 0's block at point t is rows 128·t … of the feature matrix. -/
theorem iblk_rows (c : Dev nD) (t : Fin cfg1.N) (p : Fin 128) (k : Fin 512) :
    (iblk1 V c 0 t : Vec Ideal S128x512 .f32) (ix2 p k) = (V c main_v0_0 : S8192x512.Idx → EReal) (ix2 (rowOf t p) k) := by
  obtain ⟨f00, f01, -⟩ := idx_facts t
  unfold iblk1
  rw [View.read_apply]
  show V c main_v0_0 _ = V c main_v0_0 _
  congr 1
  funext a
  apply Fin.ext
  match a with
  | ⟨0, _⟩ => show win1_0.index t (0 : Fin 2) * 128 + 1 * p.val = t.val * 128 + p.val; rw [f00]; omega
  | ⟨1, _⟩ => show win1_0.index t (1 : Fin 2) * 512 + 1 * k.val = k.val; rw [f01]; omega

/-- Window 1's block at every point is the whole feature matrix. -/
theorem iblk_all (c : Dev nD) (t : Fin cfg1.N) (j : Fin 8192) (k : Fin 512) :
    (iblk1 V c 1 t : Vec Ideal S8192x512 .f32) (ix2 j k) = (V c main_v0_0 : S8192x512.Idx → EReal) (ix2 j k) := by
  obtain ⟨-, -, f10, f11, -⟩ := idx_facts t
  unfold iblk1
  rw [View.read_apply]
  show V c main_v0_0 _ = V c main_v0_0 _
  congr 1
  funext a
  apply Fin.ext
  match a with
  | ⟨0, _⟩ => show win1_1.index t (0 : Fin 2) * 8192 + 1 * j.val = j.val; rw [f10]; omega
  | ⟨1, _⟩ => show win1_1.index t (1 : Fin 2) * 512 + 1 * k.val = k.val; rw [f11]; omega

/-- Window 2's block at point t is rows 128·t … of the squared-norm column. -/
theorem iblk_normCol (c : Dev nD) (t : Fin cfg1.N) (p : Fin 128) (u : Fin 1) :
    (iblk1 V c 2 t : Vec Ideal S128x1 .f32) (ix2 p u) = (V c main_v0_1 : S8192x1.Idx → EReal) (ix2 (rowOf t p) u) := by
  obtain ⟨-, -, -, -, f20, f21, -⟩ := idx_facts t
  unfold iblk1
  rw [View.read_apply]
  show V c main_v0_1 _ = V c main_v0_1 _
  congr 1
  funext a
  apply Fin.ext
  match a with
  | ⟨0, _⟩ => show win1_2.index t (0 : Fin 2) * 128 + 1 * p.val = t.val * 128 + p.val; rw [f20]; omega
  | ⟨1, _⟩ => show win1_2.index t (1 : Fin 2) * 1 + 1 * u.val = u.val; rw [f21]; omega

/-- Window 3's block at every point is the whole squared-norm row. -/
theorem iblk_normRow (c : Dev nD) (t : Fin cfg1.N) (u : Fin 1) (j : Fin 8192) :
    (iblk1 V c 3 t : Vec Ideal S1x8192 .f32) (ix2 u j) = (V c main_v1 : S1x8192.Idx → EReal) (ix2 u j) := by
  obtain ⟨-, -, -, -, -, -, f30, f31, -⟩ := idx_facts t
  unfold iblk1
  rw [View.read_apply]
  show V c main_v1 _ = V c main_v1 _
  congr 1
  funext a
  apply Fin.ext
  match a with
  | ⟨0, _⟩ => show win1_3.index t (0 : Fin 2) * 1 + 1 * u.val = u.val; rw [f30]; omega
  | ⟨1, _⟩ => show win1_3.index t (1 : Fin 2) * 8192 + 1 * j.val = j.val; rw [f31]; omega

/-- So the strip's entry (p, j) at point t, over the four blocks the point holds, is the distance-plus-identity entry
    (128·t + p, j) of the three arrays. -/
theorem stripEntry_blocks (c : Dev nD) (t : Fin cfg1.N) (p : Fin 128) (j : Fin 8192) :
    stripEntry (grid1.coords t) (iblk1 V c 0 t) (iblk1 V c 1 t) (iblk1 V c 2 t) (iblk1 V c 3 t) p j
      = Spec.distOf (V c main_v0_0) (V c main_v0_1) (V c main_v1) (rowOf t p) j := by
  have fc : (grid1.coords t 0).val = t.val := (idx_facts t).2.2.2.2.2.2.2.2.2.2
  unfold stripEntry Spec.distOf
  rw [iblk_normCol, iblk_normRow]
  simp only [iblk_rows, iblk_all]
  rw [fc]
  refine congrArg (HAdd.hAdd _) (if_congr ?_ rfl rfl)
  exact (Fin.ext_iff (a := rowOf t p) (b := j)).symm

/-- WHAT POINT t WRITES BACK is block t of the whole-array function. -/
theorem flushed_eq (c : Dev nD) (t : Fin cfg1.N) :
    (dat1 (F := Ideal) V c).flushed 4 t = ((cfg1.win 4).blk t).view.read (Elt Ideal) (adjOf V c) := by
  show (cfg1.win 4).cut (grid1.coords t) ((dat1 (F := Ideal) V c).after 4 t) = _
  rw [after1_4]
  unfold stripOut
  rw [View.canon_unit_zero zero_off]
  simp only [View.ld_unit_zero (S := S128x512) zero_off, View.ld_unit_zero (S := S8192x512) zero_off,
    View.ld_unit_zero (S := S128x1) zero_off, View.ld_unit_zero (S := S1x8192) zero_off]
  obtain ⟨-, -, -, -, -, -, -, -, f40, f41, -⟩ := idx_facts t
  funext y
  obtain ⟨p, q, rfl⟩ : ∃ (p : Fin 128) (q : Fin 8192), y = ix2 p q := ⟨y 0, y 1, eq_ix2 y⟩
  show k1_pay1 (F := Ideal) (grid1.coords t) (iblk1 V c 0 t) (iblk1 V c 1 t) (iblk1 V c 2 t) (iblk1 V c 3 t) (ix2 p q)
    = adjOf V c (((cfg1.win 4).blk t).view.emb (ix2 p q))
  refine (pay_apply (grid1.coords t) _ _ _ _ p q).trans ?_
  simp only [stripEntry_blocks]
  have e0 : (((cfg1.win 4).blk t).view.emb (ix2 p q) 0 : Fin 8192) = rowOf t p := Fin.ext (by
    show win1_4.index t (0 : Fin 2) * 128 + 1 * p.val = t.val * 128 + p.val; rw [f40]; omega)
  have e1 : (((cfg1.win 4).blk t).view.emb (ix2 p q) 1 : Fin 8192) = q := Fin.ext (by
    show win1_4.index t (1 : Fin 2) * 8192 + 1 * q.val = q.val; rw [f41]; omega)
  show _ = Spec.distOf (V c main_v0_0) (V c main_v0_1) (V c main_v1) (((cfg1.win 4).blk t).view.emb (ix2 p q) 0 : Fin 8192)
        (((cfg1.win 4).blk t).view.emb (ix2 p q) 1 : Fin 8192)
      * Spec.ginv (∑ j : Fin 8192, Spec.distOf (V c main_v0_0) (V c main_v0_1) (V c main_v1) (((cfg1.win 4).blk t).view.emb (ix2 p q) 0 : Fin 8192) j)
  rw [e0, e1]

/-- An index of the result array is in point t's block iff each coordinate is in the block's range on its axis. -/
theorem mem_blk (t : Fin cfg1.N) (i : S8192x8192.Idx) :
    i ∈ ((cfg1.win 4).blk t).view.set ↔ ∀ a : Fin 2, win1_4.index t a * S128x8192.size a ≤ (i a).val ∧ (i a).val < win1_4.index t a * S128x8192.size a + S128x8192.size a := by
  show i ∈ ((View.whole main_v2).slice (win1_4.rect t)).set ↔ _
  rw [View.set_slice_whole, Rect.mem_set_unit]
  exact Iff.rfl

/-- The 64 strips cover the array: row r is in the strip of point r / 128. -/
theorem cover (i : S8192x8192.Idx) : ∃ t : Fin cfg1.N, (cfg1.win 4).flush t = true ∧ i ∈ ((cfg1.win 4).blk t).view.set := by
  have hi0 : (i 0).val < 8192 := (i 0).isLt
  have hi1 : (i 1).val < 8192 := (i 1).isLt
  have hN : cfg1.N = 64 := N_1
  obtain ⟨-, -, -, -, -, -, -, -, f40, f41, -⟩ := idx_facts ⟨(i 0).val / 128, by rw [hN]; omega⟩
  refine ⟨⟨(i 0).val / 128, by rw [hN]; omega⟩, flush1_4 _, ?_⟩
  rw [mem_blk]
  intro a
  match a with
  | ⟨0, _⟩ =>
    show win1_4.index ⟨(i 0).val / 128, _⟩ (0 : Fin 2) * 128 ≤ (i 0).val ∧ (i 0).val < win1_4.index ⟨(i 0).val / 128, _⟩ (0 : Fin 2) * 128 + 128
    rw [f40]
    show (i 0).val / 128 * 128 ≤ (i 0).val ∧ (i 0).val < (i 0).val / 128 * 128 + 128
    omega
  | ⟨1, _⟩ =>
    show win1_4.index ⟨(i 0).val / 128, _⟩ (1 : Fin 2) * 8192 ≤ (i 1).val ∧ (i 1).val < win1_4.index ⟨(i 0).val / 128, _⟩ (1 : Fin 2) * 8192 + 8192
    rw [f41]
    omega

/-! ## The result array after the region -/

/-- THE RESULT ARRAY after the region's 64 points: at (i, j) the distance-plus-identity entry of the three arrays the
    region was handed, times the guarded reciprocal of row i's sum of those entries. -/
theorem adj_final (c : Dev nD) :
    ((dat1 (F := Ideal) V c).arrAt 4 cfg1.N : S8192x8192.Idx → EReal)
      = fun a => Spec.distOf (V c main_v0_0) (V c main_v0_1) (V c main_v1) (a 0) (a 1)
          * Spec.ginv (∑ j : Fin 8192, Spec.distOf (V c main_v0_0) (V c main_v0_1) (V c main_v1) (a 0) j) :=
  (dat1 (F := Ideal) V c).arrAt_eq_of_cover 4 (adjOf V c) (fun t _ => flushed_eq V c t) cover

end Cert.KernelIdeal.AdjValue

end
-- ==== Proof.KernelResult.lean ====
/-
  The kernel program's run with both results named by the specification.
-/
import proofs.«149396_j55465207660970_1_alg».proof.Proof.ResultValue
import proofs.«149396_j55465207660970_1_alg».proof.Proof.FeatValue
import proofs.«149396_j55465207660970_1_alg».proof.Proof.AdjValue

set_option maxRecDepth 16384

noncomputable section

namespace Cert.KernelIdeal.Result

open Idealize.ShloMosaic Idealize.ShloMosaic.TcCoe Idealize.ShloMosaic.ValueIdx
open Idealize.SL.Sem
open Cert.KernelIdeal Cert.KernelIdeal.Gen Cert.KernelIdeal.Run

variable (m : (ℓ : Loc nD τ sig) → Buf (Elt Ideal) ℓ)

/-- The two arguments on core c. -/
abbrev xArg (c : Dev nD) : Cert.Spec.SArg.Idx → EReal := m ((c.tc : Thread nD τ).loc main_arg0)
abbrev yArg (c : Dev nD) : Cert.Spec.SArg.Idx → EReal := m ((c.tc : Thread nD τ).loc main_arg1)

/-- The feature matrix ends as the row-normalised squared difference of the arguments. -/
theorem feat_result (c : Dev nD) :
    (W3 m c (Proc.devRef .tc main_v0_0) : Cert.Spec.SArg.Idx → EReal) = Cert.Spec.featArr (xArg m c) (yArg m c) :=
  (W3_main_v0_0 m c).trans (Cert.KernelIdeal.FeatValue.feat_final (V0 m) c)

/-- What the second region is handed, entry by entry. -/
theorem fm_apply (c : Dev nD) (i : Fin 8192) (k : Fin 512) :
    (V2 m c main_v0_0 : Cert.Spec.SArg.Idx → EReal) (ix2 i k) = Cert.Spec.feat (xArg m c) (yArg m c) i k := by
  rw [V2_main_v0_0, Cert.KernelIdeal.FeatValue.feat_final]; rfl
theorem ncol_apply (c : Dev nD) (i : Fin 8192) :
    (V2 m c main_v0_1 : S8192x1.Idx → EReal) (ix2 i 0) = Cert.Spec.sqn (xArg m c) (yArg m c) i := by
  rw [V2_main_v0_1, Cert.KernelIdeal.FeatValue.norm_final]; rfl
theorem nrow_apply (c : Dev nD) (j : Fin 8192) :
    (V2 m c main_v1 : S1x8192.Idx → EReal) (ix2 0 j) = Cert.Spec.sqn (xArg m c) (yArg m c) j := by
  rw [normRow_apply]
  show (W1 m c (Proc.devRef .tc main_v0_1) : S8192x1.Idx → EReal) (ix2 j 0) = _
  rw [W1_arr m c 3, Cert.KernelIdeal.FeatValue.norm_final]; rfl

/-- The result ends as the specification's adjacency of the arguments. -/
theorem adj_result (c : Dev nD) :
    (W3 m c (Proc.devRef .tc main_v2) : Cert.Spec.SAdj.Idx → EReal) = Cert.Spec.adjArr (xArg m c) (yArg m c) := by
  have hd : ∀ i j : Fin 8192, Cert.Spec.distOf (V2 m c main_v0_0) (V2 m c main_v0_1) (V2 m c main_v1) i j
      = Cert.Spec.distI (xArg m c) (yArg m c) i j :=
    distOf_eq_distI (xArg m c) (yArg m c) _ _ _ (fm_apply m c) (ncol_apply m c) (nrow_apply m c)
  have hfun : Cert.Spec.distOf (V2 m c main_v0_0) (V2 m c main_v0_1) (V2 m c main_v1) = Cert.Spec.distI (xArg m c) (yArg m c) :=
    funext fun i => funext fun j => hd i j
  rw [W3_main_v2, Cert.KernelIdeal.AdjValue.adj_final, hfun]
  rfl

/-- THE KERNEL PROGRAM'S RUN at the ideal values: it terminates, the result is the specification's adjacency of the
    arguments, the feature matrix the specification's normalised squared difference, the arguments unchanged. -/
theorem run_spec (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2) = Cert.Spec.adjArr (xArg m c) (yArg m c)
      ∧ r.2.mem ((c.tc : Thread nD τ).loc main_v0_0) = Cert.Spec.featArr (xArg m c) (yArg m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v2 (by decide))).trans (adj_result m c),
     (h c _ (mem_uc main_v0_0 (by decide))).trans (feat_result m c),
     (h c _ (mem_uc main_arg0 (by decide))).trans (W3_main_arg0 m c),
     (h c _ (mem_uc main_arg1 (by decide))).trans (W3_main_arg1 m c)⟩) (run_main m ρ)

end Cert.KernelIdeal.Result

end
-- ==== Proof.RefValue.lean ====
/-
  The reference program's two results are the specification's two arrays, at the ideal values.

  The reference is read one operation at a time, each stage at a symbolic index (i, k) or (i, j):

    the squared difference        (x − y)·(x − y)                            is  sqd
    its row sums                  0 + Σₖ                                     is  dsum
    the guarded reciprocal        select (s = 0) 0 (1 / s)                   is  ginv
    the normalised matrix         sqd · ginv(dsum)                           is  feat     (the second result)
    its rows' squared norms       0 + Σₖ feat²                               is  sqn
    the distance expansion        (n(i) + n(j)) − 2 · Σₖ feat(i,k)·feat(j,k)  is  dist
    the larger of it and its transpose                                       is  dist     (it is symmetric)
    plus the identity matrix      [i = j] as a number                        is  distI
    its row sums                                                             is  bsum
    the row-normalised matrix     distI · ginv(bsum)                         is  adj      (the first result)
-/
import proofs.«149396_j55465207660970_1_alg».proof.Proof.Spec
import proofs.«149396_j55465207660970_1_alg».proof.Proof.Gen.ReferenceIdeal.Run
import proofs.«149396_j55465207660970_1_alg».proof.Proof.Gen.ReferenceIdeal.Read

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx

/-- An argument matrix's contents at the ideal values. -/
abbrev Arg : Type := (⟨S8192x512, .f32⟩ : BufTy).Contents (Elt Ideal)

variable (x y : Arg)

/-! ## The index functions of the layout operations, on coordinates -/

/-- Term k of row i's sum sits at (i, k). -/
theorem idx_dsum_term (i : Fin 8192) (k : Fin 512) : Read.idx_main_v2 (ix1 i) k = ix2 i k := by
  funext a; match a with | ⟨0, _⟩ => rfl | ⟨1, _⟩ => rfl

/-- Entry (i, 0) of the column of row sums reads row i's sum. -/
theorem idx_dsum_col (i : Fin 8192) (z : Fin 1) : Read.idx_main_v3 (ix2 i z) = ix1 i := by
  funext a; match a with | ⟨0, _⟩ => rfl

/-! ## The squared difference and its row sums -/

/-- The squared difference at (i, k). -/
theorem sqd_apply (i : Fin 8192) (k : Fin 512) :
    Read.val_main_v1 (F := Ideal) x y (ix2 i k) = Spec.sqd (x (ix2 i k)) (y (ix2 i k)) := by
  rw [Read.val_main_v1_apply, Read.val_main_v0_apply, Ideal.mulf_def, Ideal.subf_def]
  rfl

/-- The sum of row i of the squared difference: the zero constant plus the sum over the row. -/
theorem dsum_apply (i : Fin 8192) : Read.val_main_v2 (F := Ideal) x y (ix1 i) = Spec.dsum x y i := by
  rw [Read.val_main_v2_apply, Read.val_main_cst_apply, Ideal.ofBits_def, Ideal.ofBits_zero_f32, zero_add]
  unfold Spec.dsum
  refine Finset.sum_congr rfl fun k _ => ?_
  rw [idx_dsum_term, sqd_apply]

/-! ## The guarded reciprocal of the row sums, and the normalised matrix (the second result) -/

/-- The guarded reciprocal of row i's sum: compare with 0, select 0, else 1 divided by it. -/
theorem ginv_dsum_apply (i : Fin 8192) (z : Fin 1) :
    Read.val_main_v8 (F := Ideal) x y (ix2 i z) = Spec.ginv (Spec.dsum x y i) := by
  rw [Read.val_main_v8_apply, Read.val_main_v5_apply, Read.val_main_v7_apply, Read.val_main_v3_apply, idx_dsum_col,
    dsum_apply, Read.val_main_v4_apply, Read.val_main_cst_0_apply, Read.val_main_call0_v1_apply,
    Read.val_main_call0_v0_apply, Read.val_main_cst_2_apply, Read.val_main_v6_apply, Read.val_main_cst_1_apply]
  simp only [Ideal.ofBits_def, Ideal.ofBits_zero_f32, Spec.ofBits_one, Ideal.hostDivf_def]
  exact Spec.select_eq_ginv _

/-- The scale factor of entry (i, k) is the column's entry (i, 0). -/
theorem idx_feat_scale (i : Fin 8192) (k : Fin 512) : Read.idx_main_v9 (ix2 i k) = ix2 i (0 : Fin 1) := by
  funext a; match a with | ⟨0, _⟩ => rfl | ⟨1, _⟩ => rfl

/-- The normalised matrix at (i, k). -/
theorem feat_apply (i : Fin 8192) (k : Fin 512) :
    Read.val_main_v10 (F := Ideal) x y (ix2 i k) = Spec.feat x y i k := by
  rw [Read.val_main_v10_apply, Read.val_main_v9_apply, idx_feat_scale, ginv_dsum_apply, sqd_apply, Ideal.mulf_def]
  rfl

/-! ## The rows' squared norms -/

/-- Term k of row i's squared norm sits at (i, k). -/
theorem idx_sqn_term (i : Fin 8192) (k : Fin 512) : Read.idx_main_v12 (ix1 i) k = ix2 i k := by
  funext a; match a with | ⟨0, _⟩ => rfl | ⟨1, _⟩ => rfl

/-- The squared norm of row i of the normalised matrix. -/
theorem sqn_apply (i : Fin 8192) : Read.val_main_v12 (F := Ideal) x y (ix1 i) = Spec.sqn x y i := by
  rw [Read.val_main_v12_apply, Read.val_main_cst_3_apply, Ideal.ofBits_def, Ideal.ofBits_zero_f32, zero_add]
  unfold Spec.sqn
  refine Finset.sum_congr rfl fun k _ => ?_
  rw [idx_sqn_term, Read.val_main_v11_apply, feat_apply, Ideal.mulf_def]

/-! ## The distance expansion -/

/-- The norms as a column, as a row, and each spread over the square. -/
theorem idx_sqn_col (i : Fin 8192) (z : Fin 1) : Read.idx_main_v13 (ix2 i z) = ix1 i := by
  funext a; match a with | ⟨0, _⟩ => rfl

theorem idx_sqn_row (z : Fin 1) (j : Fin 8192) : Read.idx_main_v14 (ix2 z j) = ix1 j := by
  funext a; match a with | ⟨0, _⟩ => rfl

theorem idx_sqn_col_bcast (i j : Fin 8192) : Read.idx_main_v15 (ix2 i j) = ix2 i (0 : Fin 1) := by
  funext a; match a with | ⟨0, _⟩ => rfl | ⟨1, _⟩ => rfl

theorem idx_sqn_row_bcast (i j : Fin 8192) : Read.idx_main_v16 (ix2 i j) = ix2 (0 : Fin 1) j := by
  funext a; match a with | ⟨0, _⟩ => rfl | ⟨1, _⟩ => rfl

/-- The sum of the two broadcast norms at (i, j). -/
theorem sqn_add_apply (i j : Fin 8192) :
    Read.val_main_v17 (F := Ideal) x y (ix2 i j) = Spec.sqn x y i + Spec.sqn x y j := by
  rw [Read.val_main_v17_apply, Read.val_main_v15_apply, Read.val_main_v16_apply, idx_sqn_col_bcast, idx_sqn_row_bcast,
    Read.val_main_v13_apply, Read.val_main_v14_apply, idx_sqn_col, idx_sqn_row, sqn_apply, sqn_apply, Ideal.addf_def]

/-- The transposed matrix at (k, j) is the matrix at (j, k); the product's term k reads (i, k) and (k, j). -/
theorem idx_feat_transpose (k : Fin 512) (j : Fin 8192) : Read.idx_main_v18 (ix2 k j) = ix2 j k := by
  funext a; match a with | ⟨0, _⟩ => rfl | ⟨1, _⟩ => rfl

theorem idx_gram_lhs (i j : Fin 8192) (k : Fin 512) : Read.lidx_main_v19 (ix2 i j) k = ix2 i k := by
  funext a; match a with | ⟨0, _⟩ => rfl | ⟨1, _⟩ => rfl

theorem idx_gram_rhs (i j : Fin 8192) (k : Fin 512) : Read.ridx_main_v19 (ix2 i j) k = ix2 k j := by
  funext a; match a with | ⟨0, _⟩ => rfl | ⟨1, _⟩ => rfl

/-- The product of the normalised matrix with its transpose at (i, j) is the inner product of rows i and j. -/
theorem gram_apply (i j : Fin 8192) :
    Read.val_main_v19 (F := Ideal) x y (ix2 i j) = Spec.gram x y i j := by
  rw [Read.val_main_v19_apply]
  unfold Spec.gram
  refine Finset.sum_congr rfl fun k _ => ?_
  rw [idx_gram_lhs, idx_gram_rhs, Read.val_main_v18_apply, idx_feat_transpose, feat_apply, feat_apply]

/-- The expansion at (i, j): the sum of the two norms less twice the inner product. -/
theorem dist_apply (i j : Fin 8192) :
    Read.val_main_v22 (F := Ideal) x y (ix2 i j) = Spec.dist x y i j := by
  rw [Read.val_main_v22_apply, Read.val_main_v21_apply, Read.val_main_v20_apply, Read.val_main_cst_4_apply,
    sqn_add_apply, gram_apply, Ideal.ofBits_def, Spec.ofBits_two, Ideal.mulf_def, Ideal.subf_def]
  rfl

/-! ## The larger of the expansion and its transpose is the expansion -/

/-- The transposed square at (i, j) is the square at (j, i). -/
theorem idx_dist_transpose (i j : Fin 8192) : Read.idx_main_v23 (ix2 i j) = ix2 j i := by
  funext a; match a with | ⟨0, _⟩ => rfl | ⟨1, _⟩ => rfl

/-- The expansion is symmetric, so the larger of it and its transpose is itself. -/
theorem max_dist_apply (i j : Fin 8192) :
    Read.val_main_v24 (F := Ideal) x y (ix2 i j) = Spec.dist x y i j := by
  rw [Read.val_main_v24_apply, Read.val_main_v23_apply, idx_dist_transpose, dist_apply, dist_apply, Ideal.maximumf_def]
  exact Spec.max_dist_self x y i j

/-! ## The identity matrix: the comparison of the two index grids, as a number -/

/-- Two row numbers below 8192 are equal as 32-bit words exactly when they are equal. -/
theorem rowWord_eq_iff (i j : Fin 8192) : BitVec.ofNat 32 i.val = BitVec.ofNat 32 j.val ↔ i = j := by
  constructor
  · intro h
    have h' := congrArg BitVec.toNat h
    rw [BitVec.toNat_ofNat, BitVec.toNat_ofNat] at h'
    have hi := i.isLt
    have hj := j.isLt
    exact Fin.ext (by omega)
  · rintro rfl; rfl

/-- The comparison of the row grid (plus the zero word) with the column grid, converted to a number, is [i = j]. -/
theorem eye_apply (i j : Fin 8192) :
    Read.val_main_v30 (F := Ideal) (ix2 i j) = if i = j then (1 : EReal) else 0 := by
  rw [Read.val_main_v30_apply, Read.val_main_v29_apply, Read.val_main_v28_apply, Read.val_main_v25_apply,
    Read.val_main_v26_apply, Read.val_main_v27_apply, Read.val_main_c_apply]
  show (((IntOp.cmpi .eq (IntOp.addi (BitVec.ofNat 32 i.val) 0#32) (BitVec.ofNat 32 j.val)).toNat : ℝ) : EReal) = _
  unfold IntOp.cmpi IntOp.addi
  rw [BitVec.add_zero]
  by_cases h : i = j
  · subst h; simp
  · have h' : ¬ BitVec.ofNat 32 i.val = BitVec.ofNat 32 j.val := fun e => h ((rowWord_eq_iff i j).mp e)
    simp [h, h']

/-- The expansion plus the identity at (i, j). -/
theorem distI_apply (i j : Fin 8192) :
    Read.val_main_v31 (F := Ideal) x y (ix2 i j) = Spec.distI x y i j := by
  rw [Read.val_main_v31_apply, max_dist_apply, eye_apply, Ideal.addf_def]
  rfl

/-! ## Its row sums, their guarded reciprocal, and the row-normalised matrix (the first result) -/

/-- Term j of row i's sum sits at (i, j). -/
theorem idx_bsum_term (i j : Fin 8192) : Read.idx_main_v32 (ix1 i) j = ix2 i j := by
  funext a; match a with | ⟨0, _⟩ => rfl | ⟨1, _⟩ => rfl

/-- The sum of row i of that matrix. -/
theorem bsum_apply (i : Fin 8192) : Read.val_main_v32 (F := Ideal) x y (ix1 i) = Spec.bsum x y i := by
  rw [Read.val_main_v32_apply, Read.val_main_cst_5_apply, Ideal.ofBits_def, Ideal.ofBits_zero_f32, zero_add]
  unfold Spec.bsum
  refine Finset.sum_congr rfl fun j _ => ?_
  rw [idx_bsum_term, distI_apply]

/-- Entry (i, 0) of the column of row sums reads row i's sum. -/
theorem idx_bsum_col (i : Fin 8192) (z : Fin 1) : Read.idx_main_v33 (ix2 i z) = ix1 i := by
  funext a; match a with | ⟨0, _⟩ => rfl

/-- The guarded reciprocal of row i's sum. -/
theorem ginv_bsum_apply (i : Fin 8192) (z : Fin 1) :
    Read.val_main_v38 (F := Ideal) x y (ix2 i z) = Spec.ginv (Spec.bsum x y i) := by
  rw [Read.val_main_v38_apply, Read.val_main_v35_apply, Read.val_main_v37_apply, Read.val_main_v33_apply, idx_bsum_col,
    bsum_apply, Read.val_main_v34_apply, Read.val_main_cst_6_apply, Read.val_main_call1_v1_apply,
    Read.val_main_call1_v0_apply, Read.val_main_cst_8_apply, Read.val_main_v36_apply, Read.val_main_cst_7_apply]
  simp only [Ideal.ofBits_def, Ideal.ofBits_zero_f32, Spec.ofBits_one, Ideal.hostDivf_def]
  exact Spec.select_eq_ginv _

/-- The scale factor of entry (i, j) is the column's entry (i, 0). -/
theorem idx_adj_scale (i j : Fin 8192) : Read.idx_main_v39 (ix2 i j) = ix2 i (0 : Fin 1) := by
  funext a; match a with | ⟨0, _⟩ => rfl | ⟨1, _⟩ => rfl

/-- The row-normalised matrix at (i, j). -/
theorem adj_apply (i j : Fin 8192) :
    Read.val_main_v40 (F := Ideal) x y (ix2 i j) = Spec.adj x y i j := by
  rw [Read.val_main_v40_apply, Read.val_main_v39_apply, idx_adj_scale, ginv_bsum_apply, distI_apply, Ideal.mulf_def]
  rfl

/-! ## The two results as arrays -/

/-- The second result's stage is the specification's normalised matrix. -/
theorem feat_eq : Read.val_main_v10 (F := Ideal) x y = Spec.featArr x y := by
  funext j
  obtain ⟨p, q, rfl⟩ : ∃ p q, j = ix2 p q := ⟨j 0, j 1, eq_ix2 j⟩
  exact feat_apply x y p q

/-- The first result's stage is the specification's row-normalised adjacency. -/
theorem adj_eq : Read.val_main_v40 (F := Ideal) x y = Spec.adjArr x y := by
  funext j
  obtain ⟨p, q, rfl⟩ : ∃ p q, j = ix2 p q := ⟨j 0, j 1, eq_ix2 j⟩
  exact adj_apply x y p q

/-! ## The run -/

/-- Every weakly fair execution of the reference ends with its first result at the specification's adjacency of the two
    arguments, its second at the specification's normalised matrix, and the arguments unchanged. -/
theorem run_spec (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ fun r => ∀ c : Dev nD,
      r.2.mem ((c.tc : Thread nD τ).loc main_v40) = Cert.Spec.adjArr (m ((c.tc : Thread nD τ).loc main_arg0)) (m ((c.tc : Thread nD τ).loc main_arg1))
      ∧ r.2.mem ((c.tc : Thread nD τ).loc main_v10) = Cert.Spec.featArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun _ h c =>
      ⟨(h c).1.trans ((Read.val_main_v40_eq m c).trans (adj_eq _ _)),
        (h c).2.1.trans ((Read.val_main_v10_eq _ _).trans (feat_eq _ _)),
        (h c).2.2.1, (h c).2.2.2⟩)
    (Cert.ReferenceIdeal.Value.run (F := Ideal) m ρ)

end Cert.ReferenceIdeal.RefValue

end
-- ==== Proof.lean ====
/-
  Two results from two 8192 × 512 matrices x and y: the row-normalised squared difference f of x and y, and the
  row-normalised matrix of pairwise squared distances between the rows of f, plus the identity.

  The kernel program computes f and its rows' squared norms n in one pass of eight blocks of 1024 rows, turns the
  column n into a row on the host, and then computes the second result in sixty-four strips of 128 rows: for each strip,
  (n(i) + n(j)) − 2·Σₖ f(i,k)·f(j,k) + [i = j] against ALL rows j (one product of the strip with the whole of f,
  transposed), each row then divided by its sum. The reference computes the same matrix whole, and takes the larger of
  it and its transpose before adding the identity. Over the extended reals addition and multiplication commute, so
  the distance matrix is its own transpose and that maximum changes nothing: entry by entry both programs compute
      a(i,j) = b(i,j) · g(Σⱼ b(i,j)),   b(i,j) = (n(i) + n(j)) − 2·Σₖ f(i,k)·f(j,k) + [i = j],
      f(i,k) = d(i,k) · g(Σₖ d(i,k)),   d = (x − y)²,   n(i) = Σₖ f(i,k)²,   g(0) = 0 and g(s) = 1/s elsewhere
  (Proof/Spec.lean). No law used needs an entry to be finite, so the precondition is never opened.

  Each program's frame — it runs to the end, faults nowhere, leaves x and y as they were — comes with its run: the
  kernel program's two regions and the reshape between them as three segments, the second region holding the matrix f
  through two of its windows at the two halves of the full share (Proof/MainRun.lean, at any float instance); the
  reference's from its run read back.
-/
import proofs.«149396_j55465207660970_1_alg».proof.Defs
import proofs.«149396_j55465207660970_1_alg».proof.Proof.Gen.Kernel
import proofs.«149396_j55465207660970_1_alg».proof.Proof.Gen.Kernel.Skeleton
import proofs.«149396_j55465207660970_1_alg».proof.Proof.Gen.Kernel.Launch
import proofs.«149396_j55465207660970_1_alg».proof.Proof.Gen.Kernel.Regions
import proofs.«149396_j55465207660970_1_alg».proof.Proof.Gen.Kernel.Points
import proofs.«149396_j55465207660970_1_alg».proof.Proof.Gen.KernelIdeal
import proofs.«149396_j55465207660970_1_alg».proof.Proof.Gen.KernelIdeal.Skeleton
import proofs.«149396_j55465207660970_1_alg».proof.Proof.Gen.KernelIdeal.Launch
import proofs.«149396_j55465207660970_1_alg».proof.Proof.Gen.KernelIdeal.Regions
import proofs.«149396_j55465207660970_1_alg».proof.Proof.Gen.KernelIdeal.Points
import proofs.«149396_j55465207660970_1_alg».proof.Proof.Gen.ReferenceIdeal
import proofs.«149396_j55465207660970_1_alg».proof.Proof.Gen.ReferenceIdeal.Run
import proofs.«149396_j55465207660970_1_alg».proof.Proof.Gen.ReferenceIdeal.Read
import proofs.«149396_j55465207660970_1_alg».proof.Proof.Gen.Pre_finite_inputs
import proofs.«149396_j55465207660970_1_alg».proof.Proof.MainRunBits
import proofs.«149396_j55465207660970_1_alg».proof.Proof.KernelResult
import proofs.«149396_j55465207660970_1_alg».proof.Proof.RefValue
import Idealize.ShloMosaic.Adequacy
import Idealize.ShloMosaic.Init

noncomputable section

namespace Cert.Proof

open Idealize.ShloMosaic Idealize.ShloMosaic.TcCoe Idealize.SL.Sem

/-- The word-level program runs and leaves its arguments as they were. -/
theorem frame_kernel [Cert.Kernel.Facts] [Cert.Pre_finite_inputs.Facts] : Cert.frame_Kernel :=
  fun m ρ _ => Cert.Kernel.Run.frame m ρ

/-- So does the idealized one. -/
theorem frame_kernelIdeal [Cert.KernelIdeal.Facts] [Cert.Pre_finite_inputs.Facts] : Cert.frame_KernelIdeal :=
  fun m ρ _ => Cert.KernelIdeal.Run.frame m ρ

/-- And the reference: its run with the results dropped. -/
theorem frame_reference [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.RefValue.run_spec m ρ)

/-- From memories that agree on x and y both programs end with the specification's adjacency and normalised matrix of
    x and y. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Spec.adjArr (Cert.KernelIdeal.Result.xArg m c) (Cert.KernelIdeal.Result.yArg m c),
    fun c => Cert.Spec.featArr (Cert.KernelIdeal.Result.xArg m c) (Cert.KernelIdeal.Result.yArg m c),
    Cert.KernelIdeal.Result.run_spec m ρ, ?_⟩
  refine (θ_run Cert.ReferenceIdeal.defs _ _).mono (fun _ h c => ⟨?_, ?_, (h c).2.2.1, (h c).2.2.2⟩)
    (Cert.ReferenceIdeal.RefValue.run_spec m' ρ')
  · rw [(h c).1, (hagree c).1, (hagree c).2]
  · rw [(h c).2.1, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
